-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S500000x10 : Shape := ⟨2, ![500000, 10]⟩
abbrev S300000x10 : Shape := ⟨2, ![300000, 10]⟩
abbrev S8000000 : Shape := ⟨1, ![8000000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S500000x10 : S_.BroadcastsInDim S500000x10 (![] : Fin 0 → Fin S500000x10.rank)
  reducesTo_S500000x10_S_d0_1 : S500000x10.ReducesTo [0, 1] S_
  bcast_S_S300000x10 : S_.BroadcastsInDim S300000x10 (![] : Fin 0 → Fin S300000x10.rank)
  reducesTo_S300000x10_S_d0_1 : S300000x10.ReducesTo [0, 1] S_
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg11 : FVec F S10x10 .f32) (main_arg12 : FVec F S10 .f32) (main_arg13 : FVec F S10x1 .f32) (main_arg14 : FVec F S1 .f32) (main_v33 : IVec S_ 1) : IVec S_ 1 :=
  let main_v34 : FVec F S10x10 .f32 := Host.absf main_arg11
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10 .f32 := Host.absf main_arg12
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x1 .f32 := Host.absf main_arg13
  let main_cst_16 : FVec F S_ .f32 := constant S_ .f32 0x7F800000#32
  let main_v45 : FVec F S10x1 .f32 := broadcastInDim S10x1 ![] bcast_S_S10x1 main_cst_16
  let main_v46 : IVec S10x1 1 := cmpf .olt main_v44 main_v45
  let main_c_17 : IVec S_ 1 := constantI S_ 1 1#1
  let main_v47 : IVec S_ 1 := (fun x v => Host.reduce IntOp.andi x v reducesTo_S10x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg8 : FVec F S10x10 .f32) (main_arg9 : FVec F S10 .f32) (main_arg10 : FVec F S10x10 .f32) (main_arg11 : FVec F S10x10 .f32) (main_arg12 : FVec F S10 .f32) (main_arg13 : FVec F S10x1 .f32) (main_arg14 : FVec F S1 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10x10 .f32 := Host.absf main_arg8
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg9
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg10
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg11 main_arg12 main_arg13 main_arg14 main_v33

def fn {F : FTy → Type} [FloatOps F] (main_arg0 : FVec F S200000x10 .f32) (main_arg1 : FVec F S500000x10 .f32) (main_arg2 : FVec F S300000x10 .f32) (main_arg3 : IVec S8000000 32) (main_arg4 : IVec S8000000 32) (main_arg5 : IVec S8000000 32) (main_arg6 : IVec S8000000 32) (main_arg7 : FVec F S10x10 .f32) (main_arg8 : FVec F S10x10 .f32) (main_arg9 : FVec F S10 .f32) (main_arg10 : FVec F S10x10 .f32) (main_arg11 : FVec F S10x10 .f32) (main_arg12 : FVec F S10 .f32) (main_arg13 : FVec F S10x1 .f32) (main_arg14 : FVec F S1 .f32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S500000x10 .f32 := Host.absf main_arg1
  let main_cst_0 : FVec F S_ .f32 := constant S_ .f32 0x7F800000#32
  let main_v5 : FVec F S500000x10 .f32 := broadcastInDim S500000x10 ![] bcast_S_S500000x10 main_cst_0
  let main_v6 : IVec S500000x10 1 := cmpf .olt main_v4 main_v5
  let main_c_1 : IVec S_ 1 := constantI S_ 1 1#1
  let main_v7 : IVec S_ 1 := (fun x v => Host.reduce IntOp.andi x v reducesTo_S500000x10_S_d0_1 h_S_) main_v6 main_c_1
  let main_v8 : IVec S_ 1 := andi main_v3 main_v7
  let main_v9 : FVec F S300000x10 .f32 := Host.absf main_arg2
  let main_cst_2 : FVec F S_ .f32 := constant S_ .f32 0x7F800000#32
  let main_v10 : FVec F S300000x10 .f32 := broadcastInDim S300000x10 ![] bcast_S_S300000x10 main_cst_2
  let main_v11 : IVec S300000x10 1 := cmpf .olt main_v9 main_v10
  let main_c_3 : IVec S_ 1 := constantI S_ 1 1#1
  let main_v12 : IVec S_ 1 := (fun x v => Host.reduce IntOp.andi x v reducesTo_S300000x10_S_d0_1 h_S_) main_v11 main_c_3
  let main_v13 : IVec S_ 1 := andi main_v8 main_v12
  let main_v14 : FVec F S10x10 .f32 := Host.absf main_arg7
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg8 main_arg9 main_arg10 main_arg11 main_arg12 main_arg13 main_arg14 main_v13 main_v16
-- ==== Kernel.lean ====
abbrev S200000x10 : Shape := ⟨2, ![200000, 10]⟩
abbrev S500000x10 : Shape := ⟨2, ![500000, 10]⟩
abbrev S300000x10 : Shape := ⟨2, ![300000, 10]⟩
abbrev S8000000 : Shape := ⟨1, ![8000000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S_ : Shape := ⟨0, ![]⟩
abbrev S8000000x1 : Shape := ⟨2, ![8000000, 1]⟩
abbrev S8000000x10 : Shape := ⟨2, ![8000000, 10]⟩
abbrev S200000 : Shape := ⟨1, ![200000]⟩
abbrev S200000x1 : Shape := ⟨2, ![200000, 1]⟩
abbrev S1x10 : Shape := ⟨2, ![1, 10]⟩
abbrev S1x1 : Shape := ⟨2, ![1, 1]⟩
abbrev S8000x10 : Shape := ⟨2, ![8000, 10]⟩
abbrev S8000x1 : Shape := ⟨2, ![8000, 1]⟩

abbrev nBuf : Space → Nat
  | .hbm => 77
  | .vmem => 14
  | .smem => 0
  | _ => 0

abbrev bufTy : (tb : Table) → Fin (tcTables nBuf tb) → BufTy
  | .hbm, ⟨0, _⟩ => ⟨S200000x10, .f32⟩
  | .hbm, ⟨1, _⟩ => ⟨S500000x10, .f32⟩
  | .hbm, ⟨2, _⟩ => ⟨S300000x10, .f32⟩
  | .hbm, ⟨3, _⟩ => ⟨S8000000, .i32⟩
  | .hbm, ⟨4, _⟩ => ⟨S8000000, .i32⟩
  | .hbm, ⟨5, _⟩ => ⟨S8000000, .i32⟩
  | .hbm, ⟨6, _⟩ => ⟨S8000000, .i32⟩
  | .hbm, ⟨7, _⟩ => ⟨S10x10, .f32⟩
  | .hbm, ⟨8, _⟩ => ⟨S10x10, .f32⟩
  | .hbm, ⟨9, _⟩ => ⟨S10, .f32⟩
  | .hbm, ⟨10, _⟩ => ⟨S10x10, .f32⟩
  | .hbm, ⟨11, _⟩ => ⟨S10x10, .f32⟩
  | .hbm, ⟨12, _⟩ => ⟨S10, .f32⟩
  | .hbm, ⟨13, _⟩ => ⟨S10x1, .f32⟩
  | .hbm, ⟨14, _⟩ => ⟨S1, .f32⟩
  | .hbm, ⟨15, _⟩ => ⟨S_, .i32⟩
  | .hbm, ⟨16, _⟩ => ⟨S8000000, .i32⟩
  | .hbm, ⟨17, _⟩ => ⟨S8000000, .i1⟩
  | .hbm, ⟨18, _⟩ => ⟨S_, .i32⟩
  | .hbm, ⟨19, _⟩ => ⟨S8000000, .i32⟩
  | .hbm, ⟨20, _⟩ => ⟨S8000000, .i32⟩
  | .hbm, ⟨21, _⟩ => ⟨S8000000, .i32⟩
  | .hbm, ⟨22, _⟩ => ⟨S8000000x1, .i32⟩
  | .hbm, ⟨23, _⟩ => ⟨S8000000x10, .f32⟩
  | .hbm, ⟨24, _⟩ => ⟨S_, .f32⟩
  | .hbm, ⟨25, _⟩ => ⟨S200000x10, .f32⟩
  | .hbm, ⟨26, _⟩ => ⟨S8000000x1, .i32⟩
  | .hbm, ⟨27, _⟩ => ⟨S200000x10, .f32⟩
  | .hbm, ⟨28, _⟩ => ⟨S_, .f32⟩
  | .hbm, ⟨29, _⟩ => ⟨S8000000, .f32⟩
  | .hbm, ⟨30, _⟩ => ⟨S_, .f32⟩
  | .hbm, ⟨31, _⟩ => ⟨S200000, .f32⟩
  | .hbm, ⟨32, _⟩ => ⟨S8000000x1, .i32⟩
  | .hbm, ⟨33, _⟩ => ⟨S200000, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000x1, .f32⟩
  | .hbm, ⟨38, _⟩ => ⟨S200000x10, .f32⟩
  | .hbm, ⟨39, _⟩ => ⟨S200000x10, .f32⟩
  | .hbm, ⟨40, _⟩ => ⟨S_, .i32⟩
  | .hbm, ⟨41, _⟩ => ⟨S8000000, .i32⟩
  | .hbm, ⟨42, _⟩ => ⟨S8000000, .i1⟩
  | .hbm, ⟨43, _⟩ => ⟨S_, .i32⟩
  | .hbm, ⟨44, _⟩ => ⟨S8000000, .i32⟩
  | .hbm, ⟨45, _⟩ => ⟨S8000000, .i32⟩
  | .hbm, ⟨46, _⟩ => ⟨S8000000, .i32⟩
  | .hbm, ⟨47, _⟩ => ⟨S8000000x1, .i32⟩
  | .hbm, ⟨48, _⟩ => ⟨S8000000x10, .f32⟩
  | .hbm, ⟨49, _⟩ => ⟨S_, .f32⟩
  | .hbm, ⟨50, _⟩ => ⟨S200000x10, .f32⟩
  | .hbm, ⟨51, _⟩ => ⟨S8000000x1, .i32⟩
  | .hbm, ⟨52, _⟩ => ⟨S200000x10, .f32⟩
  | .hbm, ⟨53, _⟩ => ⟨S_, .f32⟩
  | .hbm, ⟨54, _⟩ => ⟨S8000000, .f32⟩
  | .hbm, ⟨55, _⟩ => ⟨S_, .f32⟩
  | .hbm, ⟨56, _⟩ => ⟨S200000, .f32⟩
  | .hbm, ⟨57, _⟩ => ⟨S8000000x1, .i32⟩
  | .hbm, ⟨58, _⟩ => ⟨S200000, .f32⟩
  | .hbm, ⟨59, _⟩ => ⟨S_, .f32⟩
  | .hbm, ⟨60, _⟩ => ⟨S200000, .f32⟩
  | .hbm, ⟨61, _⟩ => ⟨S200000, .f32⟩
  | .hbm, ⟨62, _⟩ => ⟨S200000x1, .f32⟩
  | .hbm, ⟨63, _⟩ => ⟨S200000x10, .f32⟩
  | .hbm, ⟨64, _⟩ => ⟨S200000x10, .f32⟩
  | .hbm, ⟨65, _⟩ => ⟨S10x10, .f32⟩
  | .hbm, ⟨66, _⟩ => ⟨S10, .f32⟩
  | .hbm, ⟨67, _⟩ => ⟨S1x10, .f32⟩
  | .hbm, ⟨68, _⟩ => ⟨S200000x10, .bf16⟩
  | .hbm, ⟨69, _⟩ => ⟨S200000x10, .bf16⟩
  | .hbm, ⟨70, _⟩ => ⟨S200000x10, .bf16⟩
  | .hbm, ⟨71, _⟩ => ⟨S10x10, .bf16⟩
  | .hbm, ⟨72, _⟩ => ⟨S10x10, .bf16⟩
  | .hbm, ⟨73, _⟩ => ⟨S10x10, .bf16⟩
  | .hbm, ⟨74, _⟩ => ⟨S10x1, .bf16⟩
  | .hbm, ⟨75, _⟩ => ⟨S1x1, .f32⟩
  | .hbm, ⟨76, _⟩ => ⟨S200000x1, .f32⟩
  | .local _ .vmem, ⟨0, _⟩ => ⟨S8000x10, .bf16⟩
  | .local _ .vmem, ⟨1, _⟩ => ⟨S8000x10, .bf16⟩
  | .local _ .vmem, ⟨2, _⟩ => ⟨S8000x10, .bf16⟩
  | .local _ .vmem, ⟨3, _⟩ => ⟨S8000x10, .bf16⟩
  | .local _ .vmem, ⟨4, _⟩ => ⟨S8000x10, .bf16⟩
  | .local _ .vmem, ⟨5, _⟩ => ⟨S8000x10, .bf16⟩
  | .local _ .vmem, ⟨6, _⟩ => ⟨S10x10, .bf16⟩
  | .local _ .vmem, ⟨7, _⟩ => ⟨S10x10, .bf16⟩
  | .local _ .vmem, ⟨8, _⟩ => ⟨S10x10, .bf16⟩
  | .local _ .vmem, ⟨9, _⟩ => ⟨S1x10, .f32⟩
  | .local _ .vmem, ⟨10, _⟩ => ⟨S10x1, .bf16⟩
  | .local _ .vmem, ⟨11, _⟩ => ⟨S1x1, .f32⟩
  | .local _ .vmem, ⟨12, _⟩ => ⟨S8000x1, .f32⟩
  | .local _ .vmem, ⟨13, _⟩ => ⟨S8000x1, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x10 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x10 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S200000x10 : S_.BroadcastsInDim S200000x10 (![] : Fin 0 → Fin S200000x10.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  shapeCasts_S10_S1x10 : S10.ShapeCasts S1x10
  bitsLt_bf16_f32 : FTy.bits .bf16 < FTy.bits .f32
  shapeCasts_S1_S1x1 : S1.ShapeCasts S1x1
  inb_S8000x10_S8000x10_0_0 : ∀ a, (![0, 0] : Fin 2 → Nat) a + S8000x10.size a ≤ S8000x10.size a
  h_S8000x10 : 0 < S8000x10.numel
  shapeCasts_S8000x10_S8000x10 : S8000x10.ShapeCasts S8000x10
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8000x10 : S1x10.Broadcasts S8000x10
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S500000x10_S8000000x1_S8000000x10_1_0_n_n_0_1_110_wf : GatherDims.WF S500000x10 S8000000x1 S8000000x10 [1] [0] [] [0] [] 1 ![1, 10]
  scatter_S200000x10_S8000000x1_S8000000x10_1_0_0_1_wf : ScatterDims.WF S200000x10 S8000000x1 S8000000x10 [1] [0] [0] 1
  scatter_S200000_S8000000x1_S8000000_n_0_0_1_wf : ScatterDims.WF S200000 S8000000x1 S8000000 [] [0] [0] 1
  gather_S300000x10_S8000000x1_S8000000x10_1_0_n_n_0_1_110_wf : GatherDims.WF S300000x10 S8000000x1 S8000000x10 [1] [0] [] [0] [] 1 ![1, 10]
  dot_S8000x10_S10x10_S8000x10_1_0_0_1_n_n_wf : DotDims.WF S8000x10 S10x10 S8000x10 [1] [0] [0] [1] [] []
  dot_S8000x10_S10x1_S8000x1_1_0_0_1_n_n_wf : DotDims.WF S8000x10 S10x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x10.size a ≤ S200000x10.size a
  hwx0_0 : ∀ i : grid0.Coords, EltTy.bits .bf16 = 32 ∨ (Rect.block (s := S200000x10) S8000x10.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x10.size a ≤ S200000x10.size a
  hwx0_1 : ∀ i : grid0.Coords, EltTy.bits .bf16 = 32 ∨ (Rect.block (s := S200000x10) S8000x10.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x10.size a ≤ S200000x10.size a
  hwx0_2 : ∀ i : grid0.Coords, EltTy.bits .bf16 = 32 ∨ (Rect.block (s := S200000x10) S8000x10.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .bf16 = 32 ∨ (Rect.block (s := S10x10) S10x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .bf16 = 32 ∨ (Rect.block (s := S10x10) S10x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .bf16 = 32 ∨ (Rect.block (s := S10x10) S10x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x1.size a ≤ S10x1.size a
  hwx0_7 : ∀ i : grid0.Coords, EltTy.bits .bf16 = 32 ∨ (Rect.block (s := S10x1) S10x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x1.size a ≤ S200000x1.size a
  hwx0_9 : ∀ i : grid0.Coords, EltTy.bits .f32 = 32 ∨ (Rect.block (s := S200000x1) S8000x1.size (cc0_transform_9 i) (hinb0_9 i)).WholeWords (EltTy.packing .f32)

variable [Facts₀]

def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S200000x10_S8000000x1_S8000000x10_1_0_0_1 : ScatterDims S200000x10 S8000000x1 S8000000x10 where
  updateWindowDims := [1]
  insertedWindowDims := [0]
  scatterDimsToOperandDims := [0]
  indexVectorDim := 1
  wf := scatter_S200000x10_S8000000x1_S8000000x10_1_0_0_1_wf
def scatter_S200000_S8000000x1_S8000000_n_0_0_1 : ScatterDims S200000 S8000000x1 S8000000 where
  updateWindowDims := []
  insertedWindowDims := [0]
  scatterDimsToOperandDims := [0]
  indexVectorDim := 1
  wf := scatter_S200000_S8000000x1_S8000000_n_0_0_1_wf
def gather_S300000x10_S8000000x1_S8000000x10_1_0_n_n_0_1_110 : GatherDims S300000x10 S8000000x1 S8000000x10 where
  offsetDims := [1]
  collapsedSliceDims := [0]
  operandBatchingDims := []
  startIndicesBatchingDims := []
  startIndexMap := [0]
  indexVectorDim := 1
  sliceSizes := ![1, 10]
  wf := gather_S300000x10_S8000000x1_S8000000x10_1_0_n_n_0_1_110_wf
def dot_S8000x10_S10x10_S8000x10_1_0_0_1_n_n : DotDims S8000x10 S10x10 S8000x10 where
  lhsContracting := [1]
  rhsContracting := [0]
  lhsNonContracting := [0]
  rhsNonContracting := [1]
  lhsBatch := []
  rhsBatch := []
  wf := dot_S8000x10_S10x10_S8000x10_1_0_0_1_n_n_wf
def dot_S8000x10_S10x1_S8000x1_1_0_0_1_n_n : DotDims S8000x10 S10x1 S8000x1 where
  lhsContracting := [1]
  rhsContracting := [0]
  lhsNonContracting := [0]
  rhsNonContracting := [1]
  lhsBatch := []
  rhsBatch := []
  wf := dot_S8000x10_S10x1_S8000x1_1_0_0_1_n_n_wf

abbrev win0_0 : Pipeline.Window sig grid0 :=
  Pipeline.Window.ofSpec (Memref.whole main_v41) S8000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S8000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S8000x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S10x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S8000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x10 : Shape := ⟨2, ![200000, 10]⟩
abbrev S500000x10 : Shape := ⟨2, ![500000, 10]⟩
abbrev S300000x10 : Shape := ⟨2, ![300000, 10]⟩
abbrev S8000000 : Shape := ⟨1, ![8000000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S_ : Shape := ⟨0, ![]⟩
abbrev S8000000x1 : Shape := ⟨2, ![8000000, 1]⟩
abbrev S8000000x10 : Shape := ⟨2, ![8000000, 10]⟩
abbrev S200000 : Shape := ⟨1, ![200000]⟩
abbrev S200000x1 : Shape := ⟨2, ![200000, 1]⟩
abbrev S1x10 : Shape := ⟨2, ![1, 10]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S200000x10, .f32⟩
  | .hbm, ⟨1, _⟩ => ⟨S500000x10, .f32⟩
  | .hbm, ⟨2, _⟩ => ⟨S300000x10, .f32⟩
  | .hbm, ⟨3, _⟩ => ⟨S8000000, .i32⟩
  | .hbm, ⟨4, _⟩ => ⟨S8000000, .i32⟩
  | .hbm, ⟨5, _⟩ => ⟨S8000000, .i32⟩
  | .hbm, ⟨6, _⟩ => ⟨S8000000, .i32⟩
  | .hbm, ⟨7, _⟩ => ⟨S10x10, .f32⟩
  | .hbm, ⟨8, _⟩ => ⟨S10x10, .f32⟩
  | .hbm, ⟨9, _⟩ => ⟨S10, .f32⟩
  | .hbm, ⟨10, _⟩ => ⟨S10x10, .f32⟩
  | .hbm, ⟨11, _⟩ => ⟨S10x10, .f32⟩
  | .hbm, ⟨12, _⟩ => ⟨S10, .f32⟩
  | .hbm, ⟨13, _⟩ => ⟨S10x1, .f32⟩
  | .hbm, ⟨14, _⟩ => ⟨S1, .f32⟩
  | .hbm, ⟨15, _⟩ => ⟨S_, .i32⟩
  | .hbm, ⟨16, _⟩ => ⟨S8000000, .i32⟩
  | .hbm, ⟨17, _⟩ => ⟨S8000000, .i1⟩
  | .hbm, ⟨18, _⟩ => ⟨S_, .i32⟩
  | .hbm, ⟨19, _⟩ => ⟨S8000000, .i32⟩
  | .hbm, ⟨20, _⟩ => ⟨S8000000, .i32⟩
  | .hbm, ⟨21, _⟩ => ⟨S8000000, .i32⟩
  | .hbm, ⟨22, _⟩ => ⟨S8000000x1, .i32⟩
  | .hbm, ⟨23, _⟩ => ⟨S8000000x10, .f32⟩
  | .hbm, ⟨24, _⟩ => ⟨S_, .f32⟩
  | .hbm, ⟨25, _⟩ => ⟨S200000x10, .f32⟩
  | .hbm, ⟨26, _⟩ => ⟨S8000000x1, .i32⟩
  | .hbm, ⟨27, _⟩ => ⟨S200000x10, .f32⟩
  | .hbm, ⟨28, _⟩ => ⟨S_, .f32⟩
  | .hbm, ⟨29, _⟩ => ⟨S8000000, .f32⟩
  | .hbm, ⟨30, _⟩ => ⟨S_, .f32⟩
  | .hbm, ⟨31, _⟩ => ⟨S200000, .f32⟩
  | .hbm, ⟨32, _⟩ => ⟨S8000000x1, .i32⟩
  | .hbm, ⟨33, _⟩ => ⟨S200000, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000x1, .f32⟩
  | .hbm, ⟨38, _⟩ => ⟨S200000x10, .f32⟩
  | .hbm, ⟨39, _⟩ => ⟨S200000x10, .f32⟩
  | .hbm, ⟨40, _⟩ => ⟨S200000x10, .f32⟩
  | .hbm, ⟨41, _⟩ => ⟨S200000x10, .f32⟩
  | .hbm, ⟨42, _⟩ => ⟨S200000x10, .f32⟩
  | .hbm, ⟨43, _⟩ => ⟨S1x10, .f32⟩
  | .hbm, ⟨44, _⟩ => ⟨S200000x10, .f32⟩
  | .hbm, ⟨45, _⟩ => ⟨S200000x10, .f32⟩
  | .hbm, ⟨46, _⟩ => ⟨S_, .i32⟩
  | .hbm, ⟨47, _⟩ => ⟨S8000000, .i32⟩
  | .hbm, ⟨48, _⟩ => ⟨S8000000, .i1⟩
  | .hbm, ⟨49, _⟩ => ⟨S_, .i32⟩
  | .hbm, ⟨50, _⟩ => ⟨S8000000, .i32⟩
  | .hbm, ⟨51, _⟩ => ⟨S8000000, .i32⟩
  | .hbm, ⟨52, _⟩ => ⟨S8000000, .i32⟩
  | .hbm, ⟨53, _⟩ => ⟨S8000000x1, .i32⟩
  | .hbm, ⟨54, _⟩ => ⟨S8000000x10, .f32⟩
  | .hbm, ⟨55, _⟩ => ⟨S_, .f32⟩
  | .hbm, ⟨56, _⟩ => ⟨S200000x10, .f32⟩
  | .hbm, ⟨57, _⟩ => ⟨S8000000x1, .i32⟩
  | .hbm, ⟨58, _⟩ => ⟨S200000x10, .f32⟩
  | .hbm, ⟨59, _⟩ => ⟨S_, .f32⟩
  | .hbm, ⟨60, _⟩ => ⟨S8000000, .f32⟩
  | .hbm, ⟨61, _⟩ => ⟨S_, .f32⟩
  | .hbm, ⟨62, _⟩ => ⟨S200000, .f32⟩
  | .hbm, ⟨63, _⟩ => ⟨S8000000x1, .i32⟩
  | .hbm, ⟨64, _⟩ => ⟨S200000, .f32⟩
  | .hbm, ⟨65, _⟩ => ⟨S_, .f32⟩
  | .hbm, ⟨66, _⟩ => ⟨S200000, .f32⟩
  | .hbm, ⟨67, _⟩ => ⟨S200000, .f32⟩
  | .hbm, ⟨68, _⟩ => ⟨S200000x1, .f32⟩
  | .hbm, ⟨69, _⟩ => ⟨S200000x10, .f32⟩
  | .hbm, ⟨70, _⟩ => ⟨S200000x10, .f32⟩
  | .hbm, ⟨71, _⟩ => ⟨S200000x10, .f32⟩
  | .hbm, ⟨72, _⟩ => ⟨S200000x10, .f32⟩
  | .hbm, ⟨73, _⟩ => ⟨S200000x10, .f32⟩
  | .hbm, ⟨74, _⟩ => ⟨S1x10, .f32⟩
  | .hbm, ⟨75, _⟩ => ⟨S200000x10, .f32⟩
  | .hbm, ⟨76, _⟩ => ⟨S200000x10, .f32⟩
  | .hbm, ⟨77, _⟩ => ⟨S200000x10, .f32⟩
  | .hbm, ⟨78, _⟩ => ⟨S200000x1, .f32⟩
  | .hbm, ⟨79, _⟩ => ⟨S1x1, .f32⟩
  | .hbm, ⟨80, _⟩ => ⟨S200000x1, .f32⟩
  | .hbm, ⟨81, _⟩ => ⟨S200000x1, .f32⟩
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S200000x10 : S_.BroadcastsInDim S200000x10 (![] : Fin 0 → Fin S200000x10.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S500000x10_S8000000x1_S8000000x10_1_0_n_n_0_1_110_wf : GatherDims.WF S500000x10 S8000000x1 S8000000x10 [1] [0] [] [0] [] 1 ![1, 10]
  scatter_S200000x10_S8000000x1_S8000000x10_1_0_0_1_wf : ScatterDims.WF S200000x10 S8000000x1 S8000000x10 [1] [0] [0] 1
  scatter_S200000_S8000000x1_S8000000_n_0_0_1_wf : ScatterDims.WF S200000 S8000000x1 S8000000 [] [0] [0] 1
  dot_S200000x10_S10x10_S200000x10_1_0_0_1_n_n_wf : DotDims.WF S200000x10 S10x10 S200000x10 [1] [0] [0] [1] [] []
  gather_S300000x10_S8000000x1_S8000000x10_1_0_n_n_0_1_110_wf : GatherDims.WF S300000x10 S8000000x1 S8000000x10 [1] [0] [] [0] [] 1 ![1, 10]
  dot_S200000x10_S10x1_S200000x1_1_0_0_1_n_n_wf : DotDims.WF S200000x10 S10x1 S200000x1 [1] [0] [0] [1] [] []

variable [Facts₀]

def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S200000x10_S8000000x1_S8000000x10_1_0_0_1 : ScatterDims S200000x10 S8000000x1 S8000000x10 where
  updateWindowDims := [1]
  insertedWindowDims := [0]
  scatterDimsToOperandDims := [0]
  indexVectorDim := 1
  wf := scatter_S200000x10_S8000000x1_S8000000x10_1_0_0_1_wf
def scatter_S200000_S8000000x1_S8000000_n_0_0_1 : ScatterDims S200000 S8000000x1 S8000000 where
  updateWindowDims := []
  insertedWindowDims := [0]
  scatterDimsToOperandDims := [0]
  indexVectorDim := 1
  wf := scatter_S200000_S8000000x1_S8000000_n_0_0_1_wf
def dot_S200000x10_S10x10_S200000x10_1_0_0_1_n_n : DotDims S200000x10 S10x10 S200000x10 where
  lhsContracting := [1]
  rhsContracting := [0]
  lhsNonContracting := [0]
  rhsNonContracting := [1]
  lhsBatch := []
  rhsBatch := []
  wf := dot_S200000x10_S10x10_S200000x10_1_0_0_1_n_n_wf
def gather_S300000x10_S8000000x1_S8000000x10_1_0_n_n_0_1_110 : GatherDims S300000x10 S8000000x1 S8000000x10 where
  offsetDims := [1]
  collapsedSliceDims := [0]
  operandBatchingDims := []
  startIndicesBatchingDims := []
  startIndexMap := [0]
  indexVectorDim := 1
  sliceSizes := ![1, 10]
  wf := gather_S300000x10_S8000000x1_S8000000x10_1_0_n_n_0_1_110_wf
def dot_S200000x10_S10x1_S200000x1_1_0_0_1_n_n : DotDims S200000x10 S10x1 S200000x1 where
  lhsContracting := [1]
  rhsContracting := [0]
  lhsNonContracting := [0]
  rhsNonContracting := [1]
  lhsBatch := []
  rhsBatch := []
  wf := dot_S200000x10_S10x1_S200000x1_1_0_0_1_n_n_wf

class Facts : Prop extends Facts₀ where

variable [Facts]
-- ==== Proof.BodyAtEntry.lean ====
/-
  The kernel body's one store, read at an entry, on the extended reals.

  At a grid point the body loads a block of 8000 rows of each of the destination features `hs`, the two neighbour means
  `mt`, `ma`, the three square weights whole, the bias row, the readout's column weight and its scalar bias, and stores
      ((hs·ws + mt·wt) + ma·wa + b) · wl + bl
  over the block: three matrix products into a zero accumulator added left to right, the bias row broadcast down the
  rows, a change of float format (the identity on the extended reals), one more product with the column weight, the scalar
  bias broadcast. Read at row `p` (of the block) and the one column `q`, that is
      Σ_k (((Σ_j hs[p,j]·ws[j,k] + Σ_j mt[p,j]·wt[j,k]) + Σ_j ma[p,j]·wa[j,k]) + b[0,k]) · wl[k,q]  +  bl[0,0].
  Each matrix product read at an entry is a sum over the ten contracted channels (`matmul_sq_apply`, `matmul_col_apply`:
  the operand indices at output entry (p,k) and contraction index j are (p,j) and (j,k)); a broadcast of a [1,10] row
  reads the row at the entry's column, and of a [1,1] scalar its one entry.
-/
import proofs.«123986_j34986803593241_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.SageSum.KernelBody

open Cert.KernelIdeal Cert.KernelIdeal.Gen Idealize.ShloMosaic Idealize.ShloMosaic.TcCoe Idealize.ShloMosaic.ValueIdx

/-! ## The square product: [8000,10] × [10,10] → [8000,10] -/

theorem lhs_sq_0 (i : S8000x10.Idx) (q : dot_S8000x10_S10x10_S8000x10_1_0_0_1_n_n.contr.Idx) :
    (dot_S8000x10_S10x10_S8000x10_1_0_0_1_n_n.lhsIdx i q 0).val = (i 0).val := by
  unfold DotDims.lhsIdx
  rw [dif_neg (show ¬(0 : Fin S8000x10.rank) ∈ dot_S8000x10_S10x10_S8000x10_1_0_0_1_n_n.lhsBatch by decide), dif_pos (show (0 : Fin S8000x10.rank) ∈ dot_S8000x10_S10x10_S8000x10_1_0_0_1_n_n.lhsNonContracting by decide)]
  rfl
theorem lhs_sq_1 (i : S8000x10.Idx) (q : dot_S8000x10_S10x10_S8000x10_1_0_0_1_n_n.contr.Idx) :
    (dot_S8000x10_S10x10_S8000x10_1_0_0_1_n_n.lhsIdx i q 1).val = (q ⟨0, by decide⟩).val :=
  dot_S8000x10_S10x10_S8000x10_1_0_0_1_n_n.lhsIdx_val_of_single rfl i q
theorem rhs_sq_0 (i : S8000x10.Idx) (q : dot_S8000x10_S10x10_S8000x10_1_0_0_1_n_n.contr.Idx) :
    (dot_S8000x10_S10x10_S8000x10_1_0_0_1_n_n.rhsIdx i q 0).val = (q ⟨0, by decide⟩).val :=
  dot_S8000x10_S10x10_S8000x10_1_0_0_1_n_n.rhsIdx_val_of_single rfl i q
theorem rhs_sq_1 (i : S8000x10.Idx) (q : dot_S8000x10_S10x10_S8000x10_1_0_0_1_n_n.contr.Idx) :
    (dot_S8000x10_S10x10_S8000x10_1_0_0_1_n_n.rhsIdx i q 1).val = (i 1).val := by
  unfold DotDims.rhsIdx
  rw [dif_neg (show ¬(1 : Fin S10x10.rank) ∈ dot_S8000x10_S10x10_S8000x10_1_0_0_1_n_n.rhsBatch by decide), dif_pos (show (1 : Fin S10x10.rank) ∈ dot_S8000x10_S10x10_S8000x10_1_0_0_1_n_n.rhsNonContracting by decide)]
  rfl

/-- A block of rows against a square weight, into the zero accumulator, at entry (p,k): the sum over the ten contracted
    channels. -/
theorem matmul_sq_apply (l : FVec Ideal S8000x10 .bf16) (r : FVec Ideal S10x10 .bf16) (p : Fin 8000) (k : Fin 10) :
    matmul dot_S8000x10_S10x10_S8000x10_1_0_0_1_n_n none l r (constant S8000x10 .f32 0x00000000#32) (ix2 p k)
      = ∑ j : Fin 10, l (ix2 p j) * r (ix2 j k) := by
  simp only [matmul]
  rw [Ideal.matmul_constant_zero_apply, ← Equiv.sum_comp (contrEquiv1 dot_S8000x10_S10x10_S8000x10_1_0_0_1_n_n 10 rfl rfl).symm]
  refine Finset.sum_congr rfl fun j _ => ?_
  have hj := contrEquiv1_symm_val dot_S8000x10_S10x10_S8000x10_1_0_0_1_n_n 10 rfl rfl j
  have el : dot_S8000x10_S10x10_S8000x10_1_0_0_1_n_n.lhsIdx (ix2 p k) ((contrEquiv1 dot_S8000x10_S10x10_S8000x10_1_0_0_1_n_n 10 rfl rfl).symm j) = ix2 p j := funext fun a => Fin.ext (by
    match a with
    | ⟨0, _⟩ => exact lhs_sq_0 _ _
    | ⟨1, _⟩ => exact (lhs_sq_1 _ _).trans hj)
  have er : dot_S8000x10_S10x10_S8000x10_1_0_0_1_n_n.rhsIdx (ix2 p k) ((contrEquiv1 dot_S8000x10_S10x10_S8000x10_1_0_0_1_n_n 10 rfl rfl).symm j) = ix2 j k := funext fun a => Fin.ext (by
    match a with
    | ⟨0, _⟩ => exact (rhs_sq_0 _ _).trans hj
    | ⟨1, _⟩ => exact rhs_sq_1 _ _)
  rw [el, er]

/-! ## The readout's product: [8000,10] × [10,1] → [8000,1] -/

theorem lhs_col_0 (i : S8000x1.Idx) (q : dot_S8000x10_S10x1_S8000x1_1_0_0_1_n_n.contr.Idx) :
    (dot_S8000x10_S10x1_S8000x1_1_0_0_1_n_n.lhsIdx i q 0).val = (i 0).val := by
  unfold DotDims.lhsIdx
  rw [dif_neg (show ¬(0 : Fin S8000x10.rank) ∈ dot_S8000x10_S10x1_S8000x1_1_0_0_1_n_n.lhsBatch by decide), dif_pos (show (0 : Fin S8000x10.rank) ∈ dot_S8000x10_S10x1_S8000x1_1_0_0_1_n_n.lhsNonContracting by decide)]
  rfl
theorem lhs_col_1 (i : S8000x1.Idx) (q : dot_S8000x10_S10x1_S8000x1_1_0_0_1_n_n.contr.Idx) :
    (dot_S8000x10_S10x1_S8000x1_1_0_0_1_n_n.lhsIdx i q 1).val = (q ⟨0, by decide⟩).val :=
  dot_S8000x10_S10x1_S8000x1_1_0_0_1_n_n.lhsIdx_val_of_single rfl i q
theorem rhs_col_0 (i : S8000x1.Idx) (q : dot_S8000x10_S10x1_S8000x1_1_0_0_1_n_n.contr.Idx) :
    (dot_S8000x10_S10x1_S8000x1_1_0_0_1_n_n.rhsIdx i q 0).val = (q ⟨0, by decide⟩).val :=
  dot_S8000x10_S10x1_S8000x1_1_0_0_1_n_n.rhsIdx_val_of_single rfl i q
theorem rhs_col_1 (i : S8000x1.Idx) (q : dot_S8000x10_S10x1_S8000x1_1_0_0_1_n_n.contr.Idx) :
    (dot_S8000x10_S10x1_S8000x1_1_0_0_1_n_n.rhsIdx i q 1).val = (i 1).val := by
  unfold DotDims.rhsIdx
  rw [dif_neg (show ¬(1 : Fin S10x1.rank) ∈ dot_S8000x10_S10x1_S8000x1_1_0_0_1_n_n.rhsBatch by decide), dif_pos (show (1 : Fin S10x1.rank) ∈ dot_S8000x10_S10x1_S8000x1_1_0_0_1_n_n.rhsNonContracting by decide)]
  rfl

/-- A block of hidden rows against the column weight, into the zero accumulator, at entry (p,q). -/
theorem matmul_col_apply (l : FVec Ideal S8000x10 .bf16) (r : FVec Ideal S10x1 .bf16) (p : Fin 8000) (q : Fin 1) :
    matmul dot_S8000x10_S10x1_S8000x1_1_0_0_1_n_n none l r (constant S8000x1 .f32 0x00000000#32) (ix2 p q)
      = ∑ k : Fin 10, l (ix2 p k) * r (ix2 k q) := by
  simp only [matmul]
  rw [Ideal.matmul_constant_zero_apply, ← Equiv.sum_comp (contrEquiv1 dot_S8000x10_S10x1_S8000x1_1_0_0_1_n_n 10 rfl rfl).symm]
  refine Finset.sum_congr rfl fun k _ => ?_
  have hk := contrEquiv1_symm_val dot_S8000x10_S10x1_S8000x1_1_0_0_1_n_n 10 rfl rfl k
  have el : dot_S8000x10_S10x1_S8000x1_1_0_0_1_n_n.lhsIdx (ix2 p q) ((contrEquiv1 dot_S8000x10_S10x1_S8000x1_1_0_0_1_n_n 10 rfl rfl).symm k) = ix2 p k := funext fun a => Fin.ext (by
    match a with
    | ⟨0, _⟩ => exact lhs_col_0 _ _
    | ⟨1, _⟩ => exact (lhs_col_1 _ _).trans hk)
  have er : dot_S8000x10_S10x1_S8000x1_1_0_0_1_n_n.rhsIdx (ix2 p q) ((contrEquiv1 dot_S8000x10_S10x1_S8000x1_1_0_0_1_n_n 10 rfl rfl).symm k) = ix2 k q := funext fun a => Fin.ext (by
    match a with
    | ⟨0, _⟩ => exact (rhs_col_0 _ _).trans hk
    | ⟨1, _⟩ => exact rhs_col_1 _ _)
  rw [el, er]

/-! ## The two broadcasts -/

/-- The bias row broadcast down the block's rows reads the row at the entry's channel. -/
theorem bias_row_apply (b : FVec Ideal S1x10 .f32) (p : Fin 8000) (k : Fin 10) :
    broadcastTo S8000x10 b broadcasts_S1x10_S8000x10 (ix2 p k) = b (ix2 0 k) :=
  broadcastTo_apply b broadcasts_S1x10_S8000x10 (ix2 p k) (ix2 0 k) (fun a => match a with
    | ⟨0, _⟩ => by show 0 = if (1 : Nat) = 1 then 0 else p.val; rw [if_pos rfl]
    | ⟨1, _⟩ => by show k.val = if (10 : Nat) = 1 then 0 else k.val; rw [if_neg (by decide)])

/-- The scalar bias broadcast over the block reads its one entry. -/
theorem bias_scalar_apply (b : FVec Ideal S1x1 .f32) (p : Fin 8000) (q : Fin 1) :
    broadcastTo S8000x1 b broadcasts_S1x1_S8000x1 (ix2 p q) = b (ix2 0 0) :=
  broadcastTo_apply b broadcasts_S1x1_S8000x1 (ix2 p q) (ix2 0 0) (fun a => match a with
    | ⟨0, _⟩ => by show 0 = if (1 : Nat) = 1 then 0 else p.val; rw [if_pos rfl]
    | ⟨1, _⟩ => by show 0 = if (1 : Nat) = 1 then 0 else q.val; rw [if_pos rfl])

/-! ## The stored value at an entry -/

/-- The body's one payload at row `p`, column `q` of the block. -/
theorem stored_at (hs mt ma : Vec Ideal S8000x10 .bf16) (ws wt wa : Vec Ideal S10x10 .bf16) (b : Vec Ideal S1x10 .f32)
    (wl : Vec Ideal S10x1 .bf16) (bl : Vec Ideal S1x1 .f32) (p : Fin 8000) (q : Fin 1) :
    k0_pay1 (F := Ideal) hs mt ma ws wt wa b wl bl (ix2 p q)
      = (∑ k : Fin 10, ((((∑ j : Fin 10, hs (ix2 p j) * ws (ix2 j k)) + (∑ j : Fin 10, mt (ix2 p j) * wt (ix2 j k)))
            + (∑ j : Fin 10, ma (ix2 p j) * wa (ix2 j k))) + b (ix2 0 k)) * wl (ix2 k q)) + bl (ix2 0 0) := by
  unfold k0_pay1
  simp only [shapeCast_self]
  rw [addf_apply, matmul_col_apply, bias_scalar_apply]
  refine congrArg (· + bl (ix2 0 0)) (Finset.sum_congr rfl fun k _ => ?_)
  rw [truncf_apply, addf_apply, addf_apply, addf_apply, matmul_sq_apply, matmul_sq_apply, matmul_sq_apply, bias_row_apply]

end Cert.SageSum.KernelBody

end
-- ==== Proof.SumLaw.lean ====
/-
  The one algebraic law this certificate rests on, on the extended reals, with no program in sight.

  A destination row's hidden vector is a sum of two convolutions. Written once per edge type and then added, entry `k` is
      ((Σ_j x_j·a_jk + P) + c) + ((Σ_j x_j·b_jk + Q) + d),
  where `x` is the row of destination features, `a`, `b` the two self weights, `P`, `Q` the two neighbour terms and `c`, `d`
  the two biases. Written with the self weights and the biases added first, it is
      ((Σ_j x_j·(a_jk + b_jk) + P) + Q) + (c + d).
  The two agree when `x`, `a`, `b` are finite: the product distributes over `a + b` entry by entry (this is where
  finiteness is used: on the extended reals `x·(⊤ + ⊥)` and `x·⊤ + x·⊥` differ for negative `x`), the sum of sums splits, and
  what is left is a regrouping of five summands, which holds in any commutative monoid, infinite summands included — so the
  neighbour terms and the biases need no hypothesis.
-/
import Mathlib.Data.EReal.Operations
import Mathlib.Algebra.BigOperators.Group.Finset.Basic
import Mathlib.Data.Fintype.Basic
import Mathlib.Tactic.Abel

open scoped BigOperators

namespace Cert.SageSum

/-- An extended real that is a real number. -/
def Fin' (x : EReal) : Prop := x ≠ ⊤ ∧ x ≠ ⊥

/-- A finite factor distributes over a sum of two finite terms. -/
theorem mul_add_of_finite {x a b : EReal} (hx : Fin' x) (ha : Fin' a) (hb : Fin' b) : x * (a + b) = x * a + x * b := by
  lift x to ℝ using hx
  lift a to ℝ using ha
  lift b to ℝ using hb
  rw [← EReal.coe_add, ← EReal.coe_mul, ← EReal.coe_mul, ← EReal.coe_mul, ← EReal.coe_add, mul_add]

/-- A row against the sum of two weight columns is the sum of the row against each, all entries finite. -/
theorem sum_mul_add {n : Nat} (x a b : Fin n → EReal) (hx : ∀ j, Fin' (x j)) (ha : ∀ j, Fin' (a j)) (hb : ∀ j, Fin' (b j)) :
    ∑ j, x j * (a j + b j) = ∑ j, x j * a j + ∑ j, x j * b j := by
  rw [← Finset.sum_add_distrib]
  exact Finset.sum_congr rfl fun j _ => mul_add_of_finite (hx j) (ha j) (hb j)

/-- The hidden entry with the self weights and biases added first is the sum of the two per-edge-type hidden entries. The
    neighbour terms `P`, `Q` and the biases `c`, `d` are arbitrary extended reals. -/
theorem hidden_entry {n : Nat} (x a b : Fin n → EReal) (hx : ∀ j, Fin' (x j)) (ha : ∀ j, Fin' (a j)) (hb : ∀ j, Fin' (b j))
    (P Q c d : EReal) :
    ((∑ j, x j * (a j + b j) + P) + Q) + (c + d) = ((∑ j, x j * a j + P) + c) + ((∑ j, x j * b j + Q) + d) := by
  rw [sum_mul_add x a b hx ha hb]
  abel

end Cert.SageSum
-- ==== Proof.Readout.lean ====
/-
  What both programs compute, as functions of arrays over the literal shapes, and the law between the two groupings.

  For a destination row `r` and a hidden channel `k`, `rowDot x w r k = Σ_j x[r,j]·w[j,k]` is row `r` of a [200000,10]
  array against column `k` of a [10,10] weight. With `hs` the destination features, `mt`, `ma` the two neighbour means,
  the hidden entry is, with the self weights and the biases added BEFORE the products (`hiddenJoint`, fed `a + b` and
  `c + d`),
      ((hs·(a+b) + mt·wt) + ma·wa) + (c + d)
  and, computed once per edge type and then added (`hiddenSplit`),
      ((hs·a + mt·wt) + c) + ((hs·b + ma·wa) + d).
  The result is the readout `Σ_k h[r,k]·wl[k,0] + bl` of either. The two hidden entries agree when `hs`, `a`, `b` are
  finite (`hiddenJoint_eq_split`: the law of SumLaw.lean with the two neighbour products as its arbitrary terms), hence so
  do the readouts; nothing is asked of the means, the neighbour weights, the biases or the readout's own weights.
-/
import Idealize.ShloMosaic.Lib.ValueIdx
import proofs.«123986_j34986803593241_1_alg».proof.Proof.SumLaw

noncomputable section

open scoped BigOperators

namespace Cert.SageSum

open Idealize.ShloMosaic Idealize.ShloMosaic.ValueIdx

/-- The shapes: node rows by channels, a square weight, the readout's column weight, the result. -/
abbrev Rows : Shape := ⟨2, ![200000, 10]⟩
abbrev Sq : Shape := ⟨2, ![10, 10]⟩
abbrev Col : Shape := ⟨2, ![10, 1]⟩
abbrev Res : Shape := ⟨2, ![200000, 1]⟩

/-- Row `r` of `x` against column `k` of `w`. -/
def rowDot (x : Rows.Idx → EReal) (w : Sq.Idx → EReal) (r : Fin 200000) (k : Fin 10) : EReal :=
  ∑ j : Fin 10, x (ix2 r j) * w (ix2 j k)

/-- The hidden entry with ONE self weight `ws` and ONE bias `b`: three products added left to right, then the bias. -/
def hiddenJoint (hs mt ma : Rows.Idx → EReal) (ws wt wa : Sq.Idx → EReal) (b : Fin 10 → EReal)
    (r : Fin 200000) (k : Fin 10) : EReal :=
  ((rowDot hs ws r k + rowDot mt wt r k) + rowDot ma wa r k) + b k

/-- The hidden entry per edge type, then added: each has its own self weight and bias. -/
def hiddenSplit (hs mt ma : Rows.Idx → EReal) (a b wt wa : Sq.Idx → EReal) (c d : Fin 10 → EReal)
    (r : Fin 200000) (k : Fin 10) : EReal :=
  ((rowDot hs a r k + rowDot mt wt r k) + c k) + ((rowDot hs b r k + rowDot ma wa r k) + d k)

/-- The final linear layer: a hidden row against the one column of `wl`, plus the scalar bias. -/
def readout (h : Fin 200000 → Fin 10 → EReal) (wl : Col.Idx → EReal) (bl : EReal) : Res.Idx → EReal :=
  fun i => (∑ k : Fin 10, h (i 0) k * wl (ix2 k (i 1))) + bl

/-- Every entry of an array is a real number. -/
def AllFinite {s : Shape} (x : s.Idx → EReal) : Prop := ∀ i, Fin' (x i)

/-- Adding the self weights and the biases first changes no hidden entry, the destination features and the two self
    weights being finite. -/
theorem hiddenJoint_eq_split (hs mt ma : Rows.Idx → EReal) (a b wt wa : Sq.Idx → EReal) (c d : Fin 10 → EReal)
    (hhs : AllFinite hs) (ha : AllFinite a) (hb : AllFinite b) (r : Fin 200000) (k : Fin 10) :
    hiddenJoint hs mt ma (fun i => a i + b i) wt wa (fun k => c k + d k) r k = hiddenSplit hs mt ma a b wt wa c d r k := by
  unfold hiddenJoint hiddenSplit
  exact hidden_entry (fun j => hs (ix2 r j)) (fun j => a (ix2 j k)) (fun j => b (ix2 j k))
    (fun j => hhs _) (fun j => ha _) (fun j => hb _) (rowDot mt wt r k) (rowDot ma wa r k) (c k) (d k)

/-- So the two readouts are one array. -/
theorem readout_joint_eq_split (hs mt ma : Rows.Idx → EReal) (a b wt wa : Sq.Idx → EReal) (c d : Fin 10 → EReal)
    (wl : Col.Idx → EReal) (bl : EReal) (hhs : AllFinite hs) (ha : AllFinite a) (hb : AllFinite b) :
    readout (hiddenJoint hs mt ma (fun i => a i + b i) wt wa (fun k => c k + d k)) wl bl
      = readout (hiddenSplit hs mt ma a b wt wa c d) wl bl := by
  have e : hiddenJoint hs mt ma (fun i => a i + b i) wt wa (fun k => c k + d k) = hiddenSplit hs mt ma a b wt wa c d :=
    funext fun r => funext fun k => hiddenJoint_eq_split hs mt ma a b wt wa c d hhs ha hb r k
  rw [e]

end Cert.SageSum

end
-- ==== Proof.KernelPoint.lean ====
/-
  The value the kernel body stores at an entry of a block is the readout at the matching row of the whole arrays.

  Stated over variables: `hs`, `mt`, `ma` are [200000,10] arrays, `x0`, `x1`, `x2` blocks of 8000 rows; if row `p` of each
  block holds row `R` of its array and the parameter blocks hold the parameter arrays, then the stored value at (p,q)
  (BodyAtEntry.lean) is `readout (hiddenJoint …)` at (R,q): the same sums with the same entries.
-/
import proofs.«123986_j34986803593241_1_alg».proof.Proof.BodyAtEntry
import proofs.«123986_j34986803593241_1_alg».proof.Proof.Readout

noncomputable section

open scoped BigOperators

namespace Cert.SageSum.KernelValue

open Cert.KernelIdeal Cert.KernelIdeal.Gen Idealize.ShloMosaic Idealize.ShloMosaic.TcCoe
open Idealize.ShloMosaic.ValueIdx

theorem stored_is_readout (hs mt ma : S200000x10.Idx → EReal) (ws wt wa : S10x10.Idx → EReal) (b : S1x10.Idx → EReal)
    (wl : S10x1.Idx → EReal) (bl : S1x1.Idx → EReal)
    (x0 x1 x2 : Vec Ideal S8000x10 .bf16) (x3 x4 x5 : Vec Ideal S10x10 .bf16) (x6 : Vec Ideal S1x10 .f32)
    (x7 : Vec Ideal S10x1 .bf16) (x8 : Vec Ideal S1x1 .f32) (p : Fin 8000) (q : Fin 1) (R : Fin 200000)
    (h0 : ∀ j : Fin 10, x0 (ix2 p j) = hs (ix2 R j)) (h1 : ∀ j : Fin 10, x1 (ix2 p j) = mt (ix2 R j))
    (h2 : ∀ j : Fin 10, x2 (ix2 p j) = ma (ix2 R j))
    (h3 : ∀ j k : Fin 10, x3 (ix2 j k) = ws (ix2 j k)) (h4 : ∀ j k : Fin 10, x4 (ix2 j k) = wt (ix2 j k))
    (h5 : ∀ j k : Fin 10, x5 (ix2 j k) = wa (ix2 j k)) (h6 : ∀ k : Fin 10, x6 (ix2 0 k) = b (ix2 0 k))
    (h7 : ∀ k : Fin 10, x7 (ix2 k q) = wl (ix2 k q)) (h8 : x8 (ix2 0 0) = bl (ix2 0 0)) :
    k0_pay1 (F := Ideal) x0 x1 x2 x3 x4 x5 x6 x7 x8 (ix2 p q)
      = readout (hiddenJoint hs mt ma ws wt wa (fun k => b (ix2 0 k))) wl (bl (ix2 0 0)) (ix2 R q) := by
  rw [KernelBody.stored_at]
  show _ = (∑ k : Fin 10, hiddenJoint hs mt ma ws wt wa (fun k => b (ix2 0 k)) R k * wl (ix2 k q)) + bl (ix2 0 0)
  unfold hiddenJoint rowDot
  simp only [h0, h1, h2, h3, h4, h5, h6, h7, h8]

end Cert.SageSum.KernelValue

end
-- ==== Proof.KernelBlocks.lean ====
/-
  Where an index of a staged block lands in its array.

  The grid has 25 points; point `t` stages rows `8000·t … 8000·t + 7999` of the three [200000,10] row arrays (the
  destination features and the two neighbour means) and the six parameter arrays whole (their one block, at every point).
  A block's view embeds an index of the block at block index × block extent + the coordinate inside the block, axis by axis
  (`block_index`w: indices only, no array contents). The block indices are read off the printed index maps by deciding them
  at the 25 points (`idx_facts`): the row windows follow the result's window along the rows, everything else sits at block 0.
-/
import proofs.«123986_j34986803593241_1_alg».proof.Proof.Gen.KernelIdeal.Frame
import Idealize.ShloMosaic.Lib.Pipeline.Value
import Idealize.ShloMosaic.Lib.ValueIdx

noncomputable section

open scoped BigOperators

namespace Cert.SageSum.KernelValue

open Cert.KernelIdeal Cert.KernelIdeal.Gen Idealize.ShloMosaic Idealize.ShloMosaic.TcCoe Idealize.SL.Sem
open Idealize.ShloMosaic.ValueIdx

/-! ## The index maps, decided over the 25 grid points -/

/-- The three row windows move with the result's window along the rows and sit at column block 0; the six parameter windows
    sit at block (0,0); the result's row block index is below 25 and its column block index is 0. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 24 ∧ win0_9.index t (1 : Fin 2) = 0 :=
  (by decide +kernel : ∀ t : Fin grid0.N, _)

/-- Every row block is some point's. -/
theorem idx_onto : ∀ q : Fin 25, ∃ t : Fin cfg0.N, win0_9.index t (0 : Fin 2) = q.val :=
  (by decide +kernel : ∀ q : Fin 25, ∃ t : Fin grid0.N, win0_9.index t (0 : Fin 2) = q.val)

/-! ## Where a block's index lands in its array (no array contents in sight) -/

/-- Window 0 (the destination features): where an index of its block at point `t` lands in its array. -/
theorem block_index0 (t : Fin cfg0.N) (x : S8000x10.Idx) (k : S200000x10.Idx)
    (hk0 : (k 0).val = win0_0.index t (0 : Fin 2) * 8000 + (x 0).val) (hk1 : (k 1).val = win0_0.index t (1 : Fin 2) * 10 + (x 1).val) :
    ((cfg0.win 0).blk t).view.emb x = k := by
  refine funext fun a => Fin.ext ?_
  match a with
  | ⟨0, _⟩ => show win0_0.index t (0 : Fin 2) * 8000 + 1 * (x 0).val = (k 0).val; omega
  | ⟨1, _⟩ => show win0_0.index t (1 : Fin 2) * 10 + 1 * (x 1).val = (k 1).val; omega

/-- Window 1 (the token-edge neighbour mean): where an index of its block at point `t` lands in its array. -/
theorem block_index1 (t : Fin cfg0.N) (x : S8000x10.Idx) (k : S200000x10.Idx)
    (hk0 : (k 0).val = win0_1.index t (0 : Fin 2) * 8000 + (x 0).val) (hk1 : (k 1).val = win0_1.index t (1 : Fin 2) * 10 + (x 1).val) :
    ((cfg0.win 1).blk t).view.emb x = k := by
  refine funext fun a => Fin.ext ?_
  match a with
  | ⟨0, _⟩ => show win0_1.index t (0 : Fin 2) * 8000 + 1 * (x 0).val = (k 0).val; omega
  | ⟨1, _⟩ => show win0_1.index t (1 : Fin 2) * 10 + 1 * (x 1).val = (k 1).val; omega

/-- Window 2 (the article-edge neighbour mean): where an index of its block at point `t` lands in its array. -/
theorem block_index2 (t : Fin cfg0.N) (x : S8000x10.Idx) (k : S200000x10.Idx)
    (hk0 : (k 0).val = win0_2.index t (0 : Fin 2) * 8000 + (x 0).val) (hk1 : (k 1).val = win0_2.index t (1 : Fin 2) * 10 + (x 1).val) :
    ((cfg0.win 2).blk t).view.emb x = k := by
  refine funext fun a => Fin.ext ?_
  match a with
  | ⟨0, _⟩ => show win0_2.index t (0 : Fin 2) * 8000 + 1 * (x 0).val = (k 0).val; omega
  | ⟨1, _⟩ => show win0_2.index t (1 : Fin 2) * 10 + 1 * (x 1).val = (k 1).val; omega

/-- Window 3 (the joint self weight): where an index of its block at point `t` lands in its array. -/
theorem block_index3 (t : Fin cfg0.N) (x : S10x10.Idx) (k : S10x10.Idx)
    (hk0 : (k 0).val = win0_3.index t (0 : Fin 2) * 10 + (x 0).val) (hk1 : (k 1).val = win0_3.index t (1 : Fin 2) * 10 + (x 1).val) :
    ((cfg0.win 3).blk t).view.emb x = k := by
  refine funext fun a => Fin.ext ?_
  match a with
  | ⟨0, _⟩ => show win0_3.index t (0 : Fin 2) * 10 + 1 * (x 0).val = (k 0).val; omega
  | ⟨1, _⟩ => show win0_3.index t (1 : Fin 2) * 10 + 1 * (x 1).val = (k 1).val; omega

/-- Window 4 (the token-edge neighbour weight): where an index of its block at point `t` lands in its array. -/
theorem block_index4 (t : Fin cfg0.N) (x : S10x10.Idx) (k : S10x10.Idx)
    (hk0 : (k 0).val = win0_4.index t (0 : Fin 2) * 10 + (x 0).val) (hk1 : (k 1).val = win0_4.index t (1 : Fin 2) * 10 + (x 1).val) :
    ((cfg0.win 4).blk t).view.emb x = k := by
  refine funext fun a => Fin.ext ?_
  match a with
  | ⟨0, _⟩ => show win0_4.index t (0 : Fin 2) * 10 + 1 * (x 0).val = (k 0).val; omega
  | ⟨1, _⟩ => show win0_4.index t (1 : Fin 2) * 10 + 1 * (x 1).val = (k 1).val; omega

/-- Window 5 (the article-edge neighbour weight): where an index of its block at point `t` lands in its array. -/
theorem block_index5 (t : Fin cfg0.N) (x : S10x10.Idx) (k : S10x10.Idx)
    (hk0 : (k 0).val = win0_5.index t (0 : Fin 2) * 10 + (x 0).val) (hk1 : (k 1).val = win0_5.index t (1 : Fin 2) * 10 + (x 1).val) :
    ((cfg0.win 5).blk t).view.emb x = k := by
  refine funext fun a => Fin.ext ?_
  match a with
  | ⟨0, _⟩ => show win0_5.index t (0 : Fin 2) * 10 + 1 * (x 0).val = (k 0).val; omega
  | ⟨1, _⟩ => show win0_5.index t (1 : Fin 2) * 10 + 1 * (x 1).val = (k 1).val; omega

/-- Window 6 (the joint bias row): where an index of its block at point `t` lands in its array. -/
theorem block_index6 (t : Fin cfg0.N) (x : S1x10.Idx) (k : S1x10.Idx)
    (hk0 : (k 0).val = win0_6.index t (0 : Fin 2) * 1 + (x 0).val) (hk1 : (k 1).val = win0_6.index t (1 : Fin 2) * 10 + (x 1).val) :
    ((cfg0.win 6).blk t).view.emb x = k := by
  refine funext fun a => Fin.ext ?_
  match a with
  | ⟨0, _⟩ => show win0_6.index t (0 : Fin 2) * 1 + 1 * (x 0).val = (k 0).val; omega
  | ⟨1, _⟩ => show win0_6.index t (1 : Fin 2) * 10 + 1 * (x 1).val = (k 1).val; omega

/-- Window 7 (the readout's column weight): where an index of its block at point `t` lands in its array. -/
theorem block_index7 (t : Fin cfg0.N) (x : S10x1.Idx) (k : S10x1.Idx)
    (hk0 : (k 0).val = win0_7.index t (0 : Fin 2) * 10 + (x 0).val) (hk1 : (k 1).val = win0_7.index t (1 : Fin 2) * 1 + (x 1).val) :
    ((cfg0.win 7).blk t).view.emb x = k := by
  refine funext fun a => Fin.ext ?_
  match a with
  | ⟨0, _⟩ => show win0_7.index t (0 : Fin 2) * 10 + 1 * (x 0).val = (k 0).val; omega
  | ⟨1, _⟩ => show win0_7.index t (1 : Fin 2) * 1 + 1 * (x 1).val = (k 1).val; omega

/-- Window 8 (the readout's scalar bias): where an index of its block at point `t` lands in its array. -/
theorem block_index8 (t : Fin cfg0.N) (x : S1x1.Idx) (k : S1x1.Idx)
    (hk0 : (k 0).val = win0_8.index t (0 : Fin 2) * 1 + (x 0).val) (hk1 : (k 1).val = win0_8.index t (1 : Fin 2) * 1 + (x 1).val) :
    ((cfg0.win 8).blk t).view.emb x = k := by
  refine funext fun a => Fin.ext ?_
  match a with
  | ⟨0, _⟩ => show win0_8.index t (0 : Fin 2) * 1 + 1 * (x 0).val = (k 0).val; omega
  | ⟨1, _⟩ => show win0_8.index t (1 : Fin 2) * 1 + 1 * (x 1).val = (k 1).val; omega

end Cert.SageSum.KernelValue

end
-- ==== Proof.KernelArrays.lean ====
/-
  The arrays the kernel stages, and what its result array ends holding, as functions of ANY contents of its buffers.

  The one region has nine input windows; window `w` stages blocks of one array. For any assignment `A` of contents to the
  TensorCore's buffers, `hsOf A`, `mtOf A`, … are those nine arrays by their literal shapes, `blkOf A w t` is window `w`'s
  block at grid point `t` (the array read through the block's view), and `resultOf A` is the readout of the joint hidden
  entries of the nine. The kernel's own are these at the contents the region finds (`V`: the buffers after the host operations
  before the region): `hsArr`, …, `result`. Stating the block-by-block argument for an arbitrary `A` keeps it independent of
  what the host operations computed.
-/
import proofs.«123986_j34986803593241_1_alg».proof.Proof.Gen.KernelIdeal.Frame
import proofs.«123986_j34986803593241_1_alg».proof.Proof.Readout

noncomputable section

open scoped BigOperators

namespace Cert.SageSum.KernelValue

open Cert.KernelIdeal Cert.KernelIdeal.Gen Idealize.ShloMosaic Idealize.ShloMosaic.TcCoe Idealize.SL.Sem
open Idealize.ShloMosaic.ValueIdx

/-! ## For arbitrary buffer contents -/

section Generic

variable (c : Dev nD) (A : (b : Ref sig .tc) → Buf (Elt Ideal) ((c : Thread nD τ).loc b))

/-- The destination features. -/
def hsOf : S200000x10.Idx → EReal := A (Pipeline.arrRef spec0 0)
/-- The token-edge neighbour mean. -/
def mtOf : S200000x10.Idx → EReal := A (Pipeline.arrRef spec0 1)
/-- The article-edge neighbour mean. -/
def maOf : S200000x10.Idx → EReal := A (Pipeline.arrRef spec0 2)
/-- The joint self weight. -/
def wsOf : S10x10.Idx → EReal := A (Pipeline.arrRef spec0 3)
/-- The token-edge neighbour weight. -/
def wtOf : S10x10.Idx → EReal := A (Pipeline.arrRef spec0 4)
/-- The article-edge neighbour weight. -/
def waOf : S10x10.Idx → EReal := A (Pipeline.arrRef spec0 5)
/-- The joint bias row. -/
def bOf : S1x10.Idx → EReal := A (Pipeline.arrRef spec0 6)
/-- The readout's column weight. -/
def wlOf : S10x1.Idx → EReal := A (Pipeline.arrRef spec0 7)
/-- The readout's scalar bias. -/
def blOf : S1x1.Idx → EReal := A (Pipeline.arrRef spec0 8)

/-- Window `w`'s block at point `t`: its array read through the block's view. -/
def blkOf (w : Fin cfg0.W) (t : Fin cfg0.N) : ((cfg0.win w).xblock (cfg0.grid.coords t)).Idx → Elt Ideal (cfg0.win w).elt :=
  ((cfg0.win w).blk t).view.read (Elt Ideal) (A (Pipeline.arrRef spec0 w))

/-- The readout of the joint hidden entries of the nine arrays. -/
def resultOf : S200000x1.Idx → EReal :=
  readout (hiddenJoint (hsOf c A) (mtOf c A) (maOf c A) (wsOf c A) (wtOf c A) (waOf c A) (fun k => bOf c A (ix2 0 k)))
    (wlOf c A) (blOf c A (ix2 0 0))

end Generic

/-! ## At the contents the region finds -/

variable (m : (ℓ : Loc nD τ sig) → Buf (Elt Ideal) ℓ)

/-- The destination features, as the region finds it. -/
def hsArr (c : Dev nD) : S200000x10.Idx → EReal := hsOf c (V m c)
/-- The token-edge neighbour mean, as the region finds it. -/
def mtArr (c : Dev nD) : S200000x10.Idx → EReal := mtOf c (V m c)
/-- The article-edge neighbour mean, as the region finds it. -/
def maArr (c : Dev nD) : S200000x10.Idx → EReal := maOf c (V m c)
/-- The joint self weight, as the region finds it. -/
def wsArr (c : Dev nD) : S10x10.Idx → EReal := wsOf c (V m c)
/-- The token-edge neighbour weight, as the region finds it. -/
def wtArr (c : Dev nD) : S10x10.Idx → EReal := wtOf c (V m c)
/-- The article-edge neighbour weight, as the region finds it. -/
def waArr (c : Dev nD) : S10x10.Idx → EReal := waOf c (V m c)
/-- The joint bias row, as the region finds it. -/
def bArr (c : Dev nD) : S1x10.Idx → EReal := bOf c (V m c)
/-- The readout's column weight, as the region finds it. -/
def wlArr (c : Dev nD) : S10x1.Idx → EReal := wlOf c (V m c)
/-- The readout's scalar bias, as the region finds it. -/
def blArr (c : Dev nD) : S1x1.Idx → EReal := blOf c (V m c)

/-- What the kernel's result array ends holding. -/
def result (c : Dev nD) : S200000x1.Idx → EReal := resultOf c (V m c)

end Cert.SageSum.KernelValue

end
-- ==== Proof.KernelEntriesRows.lean ====
/-
  An entry of a staged block is an entry of its array: the three row windows.

  For any contents `A` of the buffers, window `w`'s block at grid point `t` is its array read through the block's view, so
  its entry at an index of the block is the array's entry where the view embeds that index — block index × block extent +
  the coordinate inside the block, axis by axis (KernelBlocks.lean's `block_index`w).
-/
import proofs.«123986_j34986803593241_1_alg».proof.Proof.KernelBlocks
import proofs.«123986_j34986803593241_1_alg».proof.Proof.KernelArrays

noncomputable section

open scoped BigOperators

namespace Cert.SageSum.KernelValue

open Cert.KernelIdeal Cert.KernelIdeal.Gen Idealize.ShloMosaic Idealize.ShloMosaic.TcCoe Idealize.SL.Sem
open Idealize.ShloMosaic.ValueIdx

/-- Window 0 (the destination features): an entry of its block at point `t` is the array's entry where the block index lands. -/
theorem blk_entry0 (c : Dev nD) (A : (b : Ref sig .tc) → Buf (Elt Ideal) ((c : Thread nD τ).loc b)) (t : Fin cfg0.N)
    (x : S8000x10.Idx) (k : S200000x10.Idx)
    (hk0 : (k 0).val = win0_0.index t (0 : Fin 2) * 8000 + (x 0).val) (hk1 : (k 1).val = win0_0.index t (1 : Fin 2) * 10 + (x 1).val) :
    (blkOf c A 0 t : Vec Ideal S8000x10 .bf16) x = hsOf c A k := by
  unfold blkOf hsOf
  rw [View.read_apply]
  exact congrArg (A (Pipeline.arrRef spec0 0)) (block_index0 t x k hk0 hk1)

/-- Window 1 (the token-edge neighbour mean): an entry of its block at point `t` is the array's entry where the block index lands. -/
theorem blk_entry1 (c : Dev nD) (A : (b : Ref sig .tc) → Buf (Elt Ideal) ((c : Thread nD τ).loc b)) (t : Fin cfg0.N)
    (x : S8000x10.Idx) (k : S200000x10.Idx)
    (hk0 : (k 0).val = win0_1.index t (0 : Fin 2) * 8000 + (x 0).val) (hk1 : (k 1).val = win0_1.index t (1 : Fin 2) * 10 + (x 1).val) :
    (blkOf c A 1 t : Vec Ideal S8000x10 .bf16) x = mtOf c A k := by
  unfold blkOf mtOf
  rw [View.read_apply]
  exact congrArg (A (Pipeline.arrRef spec0 1)) (block_index1 t x k hk0 hk1)

/-- Window 2 (the article-edge neighbour mean): an entry of its block at point `t` is the array's entry where the block index lands. -/
theorem blk_entry2 (c : Dev nD) (A : (b : Ref sig .tc) → Buf (Elt Ideal) ((c : Thread nD τ).loc b)) (t : Fin cfg0.N)
    (x : S8000x10.Idx) (k : S200000x10.Idx)
    (hk0 : (k 0).val = win0_2.index t (0 : Fin 2) * 8000 + (x 0).val) (hk1 : (k 1).val = win0_2.index t (1 : Fin 2) * 10 + (x 1).val) :
    (blkOf c A 2 t : Vec Ideal S8000x10 .bf16) x = maOf c A k := by
  unfold blkOf maOf
  rw [View.read_apply]
  exact congrArg (A (Pipeline.arrRef spec0 2)) (block_index2 t x k hk0 hk1)

end Cert.SageSum.KernelValue

end
-- ==== Proof.KernelEntriesWeights.lean ====
/-
  An entry of a staged block is an entry of its array: the three square weights.

  For any contents `A` of the buffers, window `w`'s block at grid point `t` is its array read through the block's view, so
  its entry at an index of the block is the array's entry where the view embeds that index — block index × block extent +
  the coordinate inside the block, axis by axis (KernelBlocks.lean's `block_index`w).
-/
import proofs.«123986_j34986803593241_1_alg».proof.Proof.KernelBlocks
import proofs.«123986_j34986803593241_1_alg».proof.Proof.KernelArrays

noncomputable section

open scoped BigOperators

namespace Cert.SageSum.KernelValue

open Cert.KernelIdeal Cert.KernelIdeal.Gen Idealize.ShloMosaic Idealize.ShloMosaic.TcCoe Idealize.SL.Sem
open Idealize.ShloMosaic.ValueIdx

/-- Window 3 (the joint self weight): an entry of its block at point `t` is the array's entry where the block index lands. -/
theorem blk_entry3 (c : Dev nD) (A : (b : Ref sig .tc) → Buf (Elt Ideal) ((c : Thread nD τ).loc b)) (t : Fin cfg0.N)
    (x : S10x10.Idx) (k : S10x10.Idx)
    (hk0 : (k 0).val = win0_3.index t (0 : Fin 2) * 10 + (x 0).val) (hk1 : (k 1).val = win0_3.index t (1 : Fin 2) * 10 + (x 1).val) :
    (blkOf c A 3 t : Vec Ideal S10x10 .bf16) x = wsOf c A k := by
  unfold blkOf wsOf
  rw [View.read_apply]
  exact congrArg (A (Pipeline.arrRef spec0 3)) (block_index3 t x k hk0 hk1)

/-- Window 4 (the token-edge neighbour weight): an entry of its block at point `t` is the array's entry where the block index lands. -/
theorem blk_entry4 (c : Dev nD) (A : (b : Ref sig .tc) → Buf (Elt Ideal) ((c : Thread nD τ).loc b)) (t : Fin cfg0.N)
    (x : S10x10.Idx) (k : S10x10.Idx)
    (hk0 : (k 0).val = win0_4.index t (0 : Fin 2) * 10 + (x 0).val) (hk1 : (k 1).val = win0_4.index t (1 : Fin 2) * 10 + (x 1).val) :
    (blkOf c A 4 t : Vec Ideal S10x10 .bf16) x = wtOf c A k := by
  unfold blkOf wtOf
  rw [View.read_apply]
  exact congrArg (A (Pipeline.arrRef spec0 4)) (block_index4 t x k hk0 hk1)

/-- Window 5 (the article-edge neighbour weight): an entry of its block at point `t` is the array's entry where the block index lands. -/
theorem blk_entry5 (c : Dev nD) (A : (b : Ref sig .tc) → Buf (Elt Ideal) ((c : Thread nD τ).loc b)) (t : Fin cfg0.N)
    (x : S10x10.Idx) (k : S10x10.Idx)
    (hk0 : (k 0).val = win0_5.index t (0 : Fin 2) * 10 + (x 0).val) (hk1 : (k 1).val = win0_5.index t (1 : Fin 2) * 10 + (x 1).val) :
    (blkOf c A 5 t : Vec Ideal S10x10 .bf16) x = waOf c A k := by
  unfold blkOf waOf
  rw [View.read_apply]
  exact congrArg (A (Pipeline.arrRef spec0 5)) (block_index5 t x k hk0 hk1)

end Cert.SageSum.KernelValue

end
-- ==== Proof.KernelEntriesRest.lean ====
/-
  An entry of a staged block is an entry of its array: the bias row, the readout's column weight and its scalar bias.

  For any contents `A` of the buffers, window `w`'s block at grid point `t` is its array read through the block's view, so
  its entry at an index of the block is the array's entry where the view embeds that index — block index × block extent +
  the coordinate inside the block, axis by axis (KernelBlocks.lean's `block_index`w).
-/
import proofs.«123986_j34986803593241_1_alg».proof.Proof.KernelBlocks
import proofs.«123986_j34986803593241_1_alg».proof.Proof.KernelArrays

noncomputable section

open scoped BigOperators

namespace Cert.SageSum.KernelValue

open Cert.KernelIdeal Cert.KernelIdeal.Gen Idealize.ShloMosaic Idealize.ShloMosaic.TcCoe Idealize.SL.Sem
open Idealize.ShloMosaic.ValueIdx

/-- Window 6 (the joint bias row): an entry of its block at point `t` is the array's entry where the block index lands. -/
theorem blk_entry6 (c : Dev nD) (A : (b : Ref sig .tc) → Buf (Elt Ideal) ((c : Thread nD τ).loc b)) (t : Fin cfg0.N)
    (x : S1x10.Idx) (k : S1x10.Idx)
    (hk0 : (k 0).val = win0_6.index t (0 : Fin 2) * 1 + (x 0).val) (hk1 : (k 1).val = win0_6.index t (1 : Fin 2) * 10 + (x 1).val) :
    (blkOf c A 6 t : Vec Ideal S1x10 .f32) x = bOf c A k := by
  unfold blkOf bOf
  rw [View.read_apply]
  exact congrArg (A (Pipeline.arrRef spec0 6)) (block_index6 t x k hk0 hk1)

/-- Window 7 (the readout's column weight): an entry of its block at point `t` is the array's entry where the block index lands. -/
theorem blk_entry7 (c : Dev nD) (A : (b : Ref sig .tc) → Buf (Elt Ideal) ((c : Thread nD τ).loc b)) (t : Fin cfg0.N)
    (x : S10x1.Idx) (k : S10x1.Idx)
    (hk0 : (k 0).val = win0_7.index t (0 : Fin 2) * 10 + (x 0).val) (hk1 : (k 1).val = win0_7.index t (1 : Fin 2) * 1 + (x 1).val) :
    (blkOf c A 7 t : Vec Ideal S10x1 .bf16) x = wlOf c A k := by
  unfold blkOf wlOf
  rw [View.read_apply]
  exact congrArg (A (Pipeline.arrRef spec0 7)) (block_index7 t x k hk0 hk1)

/-- Window 8 (the readout's scalar bias): an entry of its block at point `t` is the array's entry where the block index lands. -/
theorem blk_entry8 (c : Dev nD) (A : (b : Ref sig .tc) → Buf (Elt Ideal) ((c : Thread nD τ).loc b)) (t : Fin cfg0.N)
    (x : S1x1.Idx) (k : S1x1.Idx)
    (hk0 : (k 0).val = win0_8.index t (0 : Fin 2) * 1 + (x 0).val) (hk1 : (k 1).val = win0_8.index t (1 : Fin 2) * 1 + (x 1).val) :
    (blkOf c A 8 t : Vec Ideal S1x1 .f32) x = blOf c A k := by
  unfold blkOf blOf
  rw [View.read_apply]
  exact congrArg (A (Pipeline.arrRef spec0 8)) (block_index8 t x k hk0 hk1)

end Cert.SageSum.KernelValue

end
-- ==== Proof.KernelRun.lean ====
/-
  The kernel's result array is the readout of the joint hidden entries of the arrays it stages.

  Point `t` writes back rows `8000·t … 8000·t + 7999` of the [200000,1] result. For ANY contents `A` of the buffers, the value
  the body stores at row `p` of its block, computed from the nine blocks at `t`, is the readout at row `8000·t + p` of the nine
  arrays (KernelPoint.lean, fed the block entries of KernelEntries*.lean): what the body leaves, cut to the block, is block `t` of
  `resultOf A` (`flushed_generic`). At the contents the region finds this says that what point `t` writes back is block `t` of
  ONE array `result` (`flushed_eq`). Row `r` lies in the block of the point whose row block index is `r / 8000`, so the blocks
  cover the array (`covered`) and the array ends holding `result` (`final`). The run is the generated frame run with its result
  array named.
-/
import proofs.«123986_j34986803593241_1_alg».proof.Proof.Gen.KernelIdeal.Value
import proofs.«123986_j34986803593241_1_alg».proof.Proof.KernelPoint
import proofs.«123986_j34986803593241_1_alg».proof.Proof.KernelBlocks
import proofs.«123986_j34986803593241_1_alg».proof.Proof.KernelArrays
import proofs.«123986_j34986803593241_1_alg».proof.Proof.KernelEntriesRows
import proofs.«123986_j34986803593241_1_alg».proof.Proof.KernelEntriesWeights
import proofs.«123986_j34986803593241_1_alg».proof.Proof.KernelEntriesRest

noncomputable section

open scoped BigOperators

set_option maxRecDepth 16384

namespace Cert.SageSum.KernelValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-! ## For arbitrary buffer contents -/

/-- What the body leaves in the result window's buffer at point `t`, from the nine blocks of ANY contents `A`, cut to the
    block, is block `t` of `resultOf A`. -/
theorem flushed_generic (c : Dev nD) (A : (b : Ref sig .tc) → Buf (Elt Ideal) ((c : Thread nD τ).loc b)) (t : Fin cfg0.N) :
    (cfg0.win 9).cut (grid0.coords t) (out0_9 (blkOf c A 0 t) (blkOf c A 1 t) (blkOf c A 2 t) (blkOf c A 3 t) (blkOf c A 4 t)
        (blkOf c A 5 t) (blkOf c A 6 t) (blkOf c A 7 t) (blkOf c A 8 t))
      = ((cfg0.win 9).blk t).view.read (Elt Ideal) (resultOf c A) := by
  unfold out0_9
  rw [View.canon_unit_zero hz]
  simp only [View.ld_unit_zero (S := S8000x10) hz, View.ld_unit_zero (S := S10x10) hz, View.ld_unit_zero (S := S1x10) hz,
    View.ld_unit_zero (S := S10x1) hz, View.ld_unit_zero (S := S1x1) hz]
  obtain ⟨e00, e01, e10, e11, e20, e21, e30, e31, e40, e41, e50, e51, e60, e61, e70, e71, e80, e81, e9le, e91⟩ := idx_facts t
  funext y
  obtain ⟨p, q, rfl⟩ : ∃ (p : Fin 8000) (q : Fin 1), y = ix2 p q := ⟨y 0, y 1, eq_ix2 y⟩
  have hp : p.val < 8000 := p.isLt
  have hq : q.val = 0 := by have := q.isLt; omega
  obtain ⟨R, hR⟩ : ∃ R : Fin 200000, R.val = win0_9.index t (0 : Fin 2) * 8000 + p.val := ⟨⟨_, by omega⟩, rfl⟩
  rw [View.read_apply]
  have hemb : ((cfg0.win 9).blk t).view.emb (ix2 p q) = ix2 R q := funext fun a => Fin.ext (by
    match a with
    | ⟨0, _⟩ => show win0_9.index t (0 : Fin 2) * 8000 + 1 * p.val = R.val; omega
    | ⟨1, _⟩ => show win0_9.index t (1 : Fin 2) * 1 + 1 * q.val = q.val; omega)
  rw [hemb]
  unfold resultOf
  show k0_pay1 (F := Ideal) (blkOf c A 0 t) (blkOf c A 1 t) (blkOf c A 2 t) (blkOf c A 3 t) (blkOf c A 4 t) (blkOf c A 5 t)
      (blkOf c A 6 t) (blkOf c A 7 t) (blkOf c A 8 t) (ix2 p q) = _
  exact stored_is_readout (hsOf c A) (mtOf c A) (maOf c A) (wsOf c A) (wtOf c A) (waOf c A) (bOf c A) (wlOf c A) (blOf c A)
    (blkOf c A 0 t) (blkOf c A 1 t) (blkOf c A 2 t) (blkOf c A 3 t) (blkOf c A 4 t) (blkOf c A 5 t) (blkOf c A 6 t)
    (blkOf c A 7 t) (blkOf c A 8 t) p q R
    (fun j => (blk_entry0 c A t (ix2 p j) (ix2 R j) (by show R.val = _ + p.val; omega) (by show j.val = _ + j.val; omega)))
    (fun j => (blk_entry1 c A t (ix2 p j) (ix2 R j) (by show R.val = _ + p.val; omega) (by show j.val = _ + j.val; omega)))
    (fun j => (blk_entry2 c A t (ix2 p j) (ix2 R j) (by show R.val = _ + p.val; omega) (by show j.val = _ + j.val; omega)))
    (fun j k => (blk_entry3 c A t (ix2 j k) (ix2 j k) (by show j.val = _ + j.val; omega) (by show k.val = _ + k.val; omega)))
    (fun j k => (blk_entry4 c A t (ix2 j k) (ix2 j k) (by show j.val = _ + j.val; omega) (by show k.val = _ + k.val; omega)))
    (fun j k => (blk_entry5 c A t (ix2 j k) (ix2 j k) (by show j.val = _ + j.val; omega) (by show k.val = _ + k.val; omega)))
    (fun k => (blk_entry6 c A t (ix2 0 k) (ix2 0 k) (by show (0 : Fin 1).val = _ + (0 : Fin 1).val; omega) (by show k.val = _ + k.val; omega)))
    (fun k => (blk_entry7 c A t (ix2 k q) (ix2 k q) (by show k.val = _ + k.val; omega) (by show q.val = _ + q.val; omega)))
    (blk_entry8 c A t (ix2 0 0) (ix2 0 0) (by show (0 : Fin 1).val = _ + (0 : Fin 1).val; omega) (by show (0 : Fin 1).val = _ + (0 : Fin 1).val; omega))

/-! ## At the contents the region finds -/

variable (m : (ℓ : Loc nD τ sig) → Buf (Elt Ideal) ℓ) (ρ : Dev nD → PrngReg)

/-- WHAT POINT `t` WRITES BACK is block `t` of `result`. -/
theorem flushed_eq (c : Dev nD) (t : Fin cfg0.N) :
    (dats m 0 c).flushed 9 t = ((cfg0.win 9).blk t).view.read (Elt Ideal) (result m c) := by
  rw [flushed9]
  exact flushed_generic c (V m c) t

/-- An index of the result is in point `t`'s block iff each coordinate is in the block's range on its axis. -/
theorem mem_blk (t : Fin cfg0.N) (i : S200000x1.Idx) :
    i ∈ ((cfg0.win 9).blk t).view.set ↔ ∀ a : Fin 2, win0_9.index t a * S8000x1.size a ≤ (i a).val ∧ (i a).val < win0_9.index t a * S8000x1.size a + S8000x1.size a := by
  show i ∈ ((View.whole main_v49).slice (win0_9.rect t)).set ↔ _
  rw [View.set_slice_whole, Rect.mem_set_unit]
  exact Iff.rfl

/-- Row `r` is in the block of the point whose row block index is `r / 8000`: the blocks cover the result. -/
theorem covered (i : S200000x1.Idx) : ∃ t : Fin cfg0.N, (cfg0.win 9).flush t = true ∧ i ∈ ((cfg0.win 9).blk t).view.set := by
  have hi0 : (i 0).val < 200000 := (i 0).isLt
  have hi1 : (i 1).val < 1 := (i 1).isLt
  obtain ⟨t, ht⟩ := idx_onto ⟨(i 0).val / 8000, by omega⟩
  have ht' : win0_9.index t (0 : Fin 2) = (i 0).val / 8000 := ht
  obtain ⟨-, -, -, -, -, -, -, -, -, -, -, -, -, -, -, -, -, -, -, e91⟩ := idx_facts t
  refine ⟨t, flush0_9 t, ?_⟩
  rw [mem_blk]
  intro a
  match a with
  | ⟨0, _⟩ => show win0_9.index t (0 : Fin 2) * 8000 ≤ (i 0).val ∧ (i 0).val < win0_9.index t (0 : Fin 2) * 8000 + 8000; omega
  | ⟨1, _⟩ => show win0_9.index t (1 : Fin 2) * 1 ≤ (i 1).val ∧ (i 1).val < win0_9.index t (1 : Fin 2) * 1 + 1; omega

/-- THE RESULT ARRAY after the run is `result`. -/
theorem final (c : Dev nD) : (dats m 0 c).arrAt 9 cfg0.N = result m c :=
  (dats m 0 c).arrAt_eq_of_cover 9 (result m c) (fun t _ => flushed_eq m c t) covered

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v49) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (run_blocks m ρ)

end Cert.SageSum.KernelValue

end
-- ==== Proof.MeanTerms.lean ====
/-
  The two neighbour means, as the kernel's program computes them, are the arrays the reference computes.

  Both programs form a neighbour mean the same way: gather the source rows along the edges (a negative source index wrapped
  by the number of source rows first), add them into their destination rows (a segment sum), count the edges into each
  destination the same way, and divide the sums by the counts clamped below by one. The two printed programs spell this with
  the same operations in the same order; they differ only in which program's copy of the three dimension records (the gather
  and the two scatter-adds) and of the shapes' side conditions each cites. The records are equal field by field
  (`gather…_eq`, `scatter…_eq`), and with them rewritten the two terms are one. Nothing about a gather or a scatter-add is
  used: the means stay whole arrays.
-/
import proofs.«123986_j34986803593241_1_alg».proof.Proof.Gen.KernelIdeal
import proofs.«123986_j34986803593241_1_alg».proof.Proof.Gen.ReferenceIdeal.Read

noncomputable section

namespace Cert.SageSum.Means

open Idealize.ShloMosaic Idealize.ShloMosaic.TcCoe

/-! ## The dimension records of the two programs are equal -/

theorem gatherTok_eq : Cert.KernelIdeal.gather_S500000x10_S8000000x1_S8000000x10_1_0_n_n_0_1_110
    = Cert.ReferenceIdeal.gather_S500000x10_S8000000x1_S8000000x10_1_0_n_n_0_1_110 := rfl
theorem gatherArt_eq : Cert.KernelIdeal.gather_S300000x10_S8000000x1_S8000000x10_1_0_n_n_0_1_110
    = Cert.ReferenceIdeal.gather_S300000x10_S8000000x1_S8000000x10_1_0_n_n_0_1_110 := rfl
theorem scatterRows_eq : Cert.KernelIdeal.scatter_S200000x10_S8000000x1_S8000000x10_1_0_0_1
    = Cert.ReferenceIdeal.scatter_S200000x10_S8000000x1_S8000000x10_1_0_0_1 := rfl
theorem scatterCount_eq : Cert.KernelIdeal.scatter_S200000_S8000000x1_S8000000_n_0_0_1
    = Cert.ReferenceIdeal.scatter_S200000_S8000000x1_S8000000_n_0_0_1 := rfl

/-! ## The means as the kernel's program spells them -/

section KernelSpelling
open Cert.KernelIdeal Cert.KernelIdeal.Gen

/-- The mean over token edges: `x1` the token features, `x3` the source and `x4` the destination of each edge. -/
def meanTok (x1 : FVec Ideal S500000x10 .f32) (x3 x4 : IVec S8000000 32) : FVec Ideal S200000x10 .f32 :=
  Host.divf (Host.scatterAdd scatter_S200000x10_S8000000x1_S8000000x10_1_0_0_1 (broadcastInDim S200000x10 ![] bcast_S_S200000x10 (constant (F := Ideal) S_ .f32 0x00000000#32)) (broadcastInDim S8000000x1 ![0] bcast_S8000000_S8000000x1_0 (x4)) (Host.gather gather_S500000x10_S8000000x1_S8000000x10_1_0_n_n_0_1_110 (x1) (broadcastInDim S8000000x1 ![0] bcast_S8000000_S8000000x1_0 (select (cmpi .slt (x3) (broadcastInDim S8000000 ![] bcast_S_S8000000 (constantI S_ 32 0#32))) (addi (x3) (broadcastInDim S8000000 ![] bcast_S_S8000000 (constantI S_ 32 500000#32))) (x3))))) (broadcastInDim S200000x10 ![0, 1] bcast_S200000x1_S200000x10_0_1 (broadcastInDim S200000x1 ![0] bcast_S200000_S200000x1_0 (maximumf (Host.scatterAdd scatter_S200000_S8000000x1_S8000000_n_0_0_1 (broadcastInDim S200000 ![] bcast_S_S200000 (constant (F := Ideal) S_ .f32 0x00000000#32)) (broadcastInDim S8000000x1 ![0] bcast_S8000000_S8000000x1_0 (x4)) (broadcastInDim S8000000 ![] bcast_S_S8000000 (constant (F := Ideal) S_ .f32 0x3F800000#32))) (broadcastInDim S200000 ![] bcast_S_S200000 (constant (F := Ideal) S_ .f32 0x3F800000#32)))))

/-- The mean over article edges: `x2` the article features, `x5` the source and `x6` the destination of each edge. -/
def meanArt (x2 : FVec Ideal S300000x10 .f32) (x5 x6 : IVec S8000000 32) : FVec Ideal S200000x10 .f32 :=
  Host.divf (Host.scatterAdd scatter_S200000x10_S8000000x1_S8000000x10_1_0_0_1 (broadcastInDim S200000x10 ![] bcast_S_S200000x10 (constant (F := Ideal) S_ .f32 0x00000000#32)) (broadcastInDim S8000000x1 ![0] bcast_S8000000_S8000000x1_0 (x6)) (Host.gather gather_S300000x10_S8000000x1_S8000000x10_1_0_n_n_0_1_110 (x2) (broadcastInDim S8000000x1 ![0] bcast_S8000000_S8000000x1_0 (select (cmpi .slt (x5) (broadcastInDim S8000000 ![] bcast_S_S8000000 (constantI S_ 32 0#32))) (addi (x5) (broadcastInDim S8000000 ![] bcast_S_S8000000 (constantI S_ 32 300000#32))) (x5))))) (broadcastInDim S200000x10 ![0, 1] bcast_S200000x1_S200000x10_0_1 (broadcastInDim S200000x1 ![0] bcast_S200000_S200000x1_0 (maximumf (Host.scatterAdd scatter_S200000_S8000000x1_S8000000_n_0_0_1 (broadcastInDim S200000 ![] bcast_S_S200000 (constant (F := Ideal) S_ .f32 0x00000000#32)) (broadcastInDim S8000000x1 ![0] bcast_S8000000_S8000000x1_0 (x6)) (broadcastInDim S8000000 ![] bcast_S_S8000000 (constant (F := Ideal) S_ .f32 0x3F800000#32))) (broadcastInDim S200000 ![] bcast_S_S200000 (constant (F := Ideal) S_ .f32 0x3F800000#32)))))

end KernelSpelling

/-! ## A change of float format -/

/-- On the extended reals a narrowing of the float format changes nothing: both means are staged through one. -/
theorem truncf_ideal {s : Shape} {φ ψ : FTy} (x : FVec Ideal s φ) (h : ψ.bits < φ.bits) : (truncf ψ x h : FVec Ideal s ψ) = x := rfl

/-! ## They are the reference's -/

theorem meanTok_eq (x1 : FVec Ideal Cert.KernelIdeal.S500000x10 .f32) (x3 x4 : IVec Cert.KernelIdeal.S8000000 32) :
    meanTok x1 x3 x4 = Cert.ReferenceIdeal.Read.val_main_v18 (F := Ideal) x1 x3 x4 := by
  unfold meanTok Cert.ReferenceIdeal.Read.val_main_v18 Cert.ReferenceIdeal.Read.val_main_v9 Cert.ReferenceIdeal.Read.val_main_v17 Cert.ReferenceIdeal.Read.val_main_v16 Cert.ReferenceIdeal.Read.val_main_v15 Cert.ReferenceIdeal.Read.val_main_v13 Cert.ReferenceIdeal.Read.val_main_v14 Cert.ReferenceIdeal.Read.val_main_v12 Cert.ReferenceIdeal.Read.val_main_v11 Cert.ReferenceIdeal.Read.val_main_v10 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst Cert.ReferenceIdeal.Read.val_main_cst_1 Cert.ReferenceIdeal.Read.val_main_cst_2 Cert.ReferenceIdeal.Read.val_main_cst_3
  rw [gatherTok_eq, scatterRows_eq, scatterCount_eq]

theorem meanArt_eq (x2 : FVec Ideal Cert.KernelIdeal.S300000x10 .f32) (x5 x6 : IVec Cert.KernelIdeal.S8000000 32) :
    meanArt x2 x5 x6 = Cert.ReferenceIdeal.Read.val_main_v43 (F := Ideal) x2 x5 x6 := by
  unfold meanArt Cert.ReferenceIdeal.Read.val_main_v43 Cert.ReferenceIdeal.Read.val_main_v34 Cert.ReferenceIdeal.Read.val_main_v42 Cert.ReferenceIdeal.Read.val_main_v41 Cert.ReferenceIdeal.Read.val_main_v40 Cert.ReferenceIdeal.Read.val_main_v38 Cert.ReferenceIdeal.Read.val_main_v39 Cert.ReferenceIdeal.Read.val_main_v37 Cert.ReferenceIdeal.Read.val_main_v36 Cert.ReferenceIdeal.Read.val_main_v35 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_c_4 Cert.ReferenceIdeal.Read.val_main_c_5 Cert.ReferenceIdeal.Read.val_main_cst_6 Cert.ReferenceIdeal.Read.val_main_cst_7 Cert.ReferenceIdeal.Read.val_main_cst_8 Cert.ReferenceIdeal.Read.val_main_cst_9
  rw [gatherArt_eq, scatterRows_eq, scatterCount_eq]

end Cert.SageSum.Means

end
-- ==== Proof.StagedTok.lean ====
/-
  What the kernel's staged arrays ARE, as functions of the arguments: the destination features and the token-edge mean.

  Before its one region the host computes the two neighbour means (MeanTerms.lean), the sum of the two self weights, the sum
  of the two biases reshaped to a row, the readout's bias reshaped to [1,1], and changes of float format of the destination
  features, the means and the weights — the identity on the extended reals. Each staged array is read off the fold of the 61
  host operations at its buffer: what is left is an argument, a mean of arguments, or a sum of two arguments.
-/
import proofs.«123986_j34986803593241_1_alg».proof.Proof.Gen.KernelIdeal.Frame
import proofs.«123986_j34986803593241_1_alg».proof.Proof.KernelArrays
import proofs.«123986_j34986803593241_1_alg».proof.Proof.MeanTerms
import Idealize.ShloMosaic.Lib.StableHlo.Run
import Idealize.ShloMosaic.Lib.Pipeline.Value
import Idealize.ShloMosaic.Lib.ValueIdx

noncomputable section

open scoped BigOperators

namespace Cert.SageSum.KernelValue

open Cert.KernelIdeal Cert.KernelIdeal.Gen Idealize.ShloMosaic Idealize.ShloMosaic.TcCoe Idealize.SL.Sem Idealize.ShloMosaic.StableHlo
open Idealize.ShloMosaic.ValueIdx Cert.SageSum.Means

variable (m : (ℓ : Loc nD τ sig) → Buf (Elt Ideal) ℓ)

set_option maxHeartbeats 8000000 in
set_option maxRecDepth 8192 in
/-- The destination features are staged as they are. -/
theorem hsArr_eq (c : Dev nD) : hsArr m c = m ((c : Thread nD τ).loc main_arg0) := by
  unfold hsArr hsOf
  show StableHlo.after hostOps0 (fun b => m (c, b)) (Proc.devRef .tc main_v41) = _
  after_results_simp
  rfl

set_option maxHeartbeats 8000000 in
set_option maxRecDepth 8192 in
/-- The token-edge mean is staged, read off the host operations: the mean's own operations, then a change of float format. -/
theorem mtArr_raw (c : Dev nD) :
    mtArr m c = truncf .bf16 (meanTok (m (c, Proc.devRef .tc main_arg1)) (m (c, Proc.devRef .tc main_arg3)) (m (c, Proc.devRef .tc main_arg4))) bitsLt_bf16_f32 := by
  unfold mtArr mtOf meanTok
  show StableHlo.after hostOps0 (fun b => m (c, b)) (Proc.devRef .tc main_v42) = _
  after_results_simp
  all_goals rfl

/-- The token-edge mean is staged: the change of float format is the identity on the extended reals. -/
theorem mtArr_eq (c : Dev nD) : mtArr m c = meanTok (m ((c : Thread nD τ).loc main_arg1)) (m ((c : Thread nD τ).loc main_arg3)) (m ((c : Thread nD τ).loc main_arg4)) :=
  (mtArr_raw m c).trans (truncf_ideal _ _)

end Cert.SageSum.KernelValue

end
-- ==== Proof.StagedArt.lean ====
/-
  What the kernel's staged arrays ARE, as functions of the arguments: the article-edge mean.

  Before its one region the host computes the two neighbour means (MeanTerms.lean), the sum of the two self weights, the sum
  of the two biases reshaped to a row, the readout's bias reshaped to [1,1], and changes of float format of the destination
  features, the means and the weights — the identity on the extended reals. Each staged array is read off the fold of the 61
  host operations at its buffer: what is left is an argument, a mean of arguments, or a sum of two arguments.
-/
import proofs.«123986_j34986803593241_1_alg».proof.Proof.Gen.KernelIdeal.Frame
import proofs.«123986_j34986803593241_1_alg».proof.Proof.KernelArrays
import proofs.«123986_j34986803593241_1_alg».proof.Proof.MeanTerms
import Idealize.ShloMosaic.Lib.StableHlo.Run
import Idealize.ShloMosaic.Lib.Pipeline.Value
import Idealize.ShloMosaic.Lib.ValueIdx

noncomputable section

open scoped BigOperators

namespace Cert.SageSum.KernelValue

open Cert.KernelIdeal Cert.KernelIdeal.Gen Idealize.ShloMosaic Idealize.ShloMosaic.TcCoe Idealize.SL.Sem Idealize.ShloMosaic.StableHlo
open Idealize.ShloMosaic.ValueIdx Cert.SageSum.Means

variable (m : (ℓ : Loc nD τ sig) → Buf (Elt Ideal) ℓ)

set_option maxHeartbeats 8000000 in
set_option maxRecDepth 8192 in
/-- The article-edge mean is staged, read off the host operations: the mean's own operations, then a change of float format. -/
theorem maArr_raw (c : Dev nD) :
    maArr m c = truncf .bf16 (meanArt (m (c, Proc.devRef .tc main_arg2)) (m (c, Proc.devRef .tc main_arg5)) (m (c, Proc.devRef .tc main_arg6))) bitsLt_bf16_f32 := by
  unfold maArr maOf meanArt
  show StableHlo.after hostOps0 (fun b => m (c, b)) (Proc.devRef .tc main_v43) = _
  after_results_simp
  all_goals rfl

/-- The article-edge mean is staged: the change of float format is the identity on the extended reals. -/
theorem maArr_eq (c : Dev nD) : maArr m c = meanArt (m ((c : Thread nD τ).loc main_arg2)) (m ((c : Thread nD τ).loc main_arg5)) (m ((c : Thread nD τ).loc main_arg6)) :=
  (maArr_raw m c).trans (truncf_ideal _ _)

end Cert.SageSum.KernelValue

end
-- ==== Proof.StagedWeights.lean ====
/-
  What the kernel's staged arrays ARE, as functions of the arguments: the three square weights.

  Before its one region the host computes the two neighbour means (MeanTerms.lean), the sum of the two self weights, the sum
  of the two biases reshaped to a row, the readout's bias reshaped to [1,1], and changes of float format of the destination
  features, the means and the weights — the identity on the extended reals. Each staged array is read off the fold of the 61
  host operations at its buffer: what is left is an argument, a mean of arguments, or a sum of two arguments.
-/
import proofs.«123986_j34986803593241_1_alg».proof.Proof.Gen.KernelIdeal.Frame
import proofs.«123986_j34986803593241_1_alg».proof.Proof.KernelArrays
import Idealize.ShloMosaic.Lib.StableHlo.Run
import Idealize.ShloMosaic.Lib.Pipeline.Value
import Idealize.ShloMosaic.Lib.ValueIdx

noncomputable section

open scoped BigOperators

namespace Cert.SageSum.KernelValue

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxHeartbeats 8000000 in
set_option maxRecDepth 8192 in
/-- The joint self weight is the entrywise sum of the two self weights. -/
theorem wsArr_eq (c : Dev nD) : wsArr m c = addf (F := Ideal) (s := S10x10) (φ := .f32) (m ((c : Thread nD τ).loc main_arg7)) (m ((c : Thread nD τ).loc main_arg10)) := by
  unfold wsArr wsOf
  show StableHlo.after hostOps0 (fun b => m (c, b)) (Proc.devRef .tc main_v44) = _
  after_results_simp
  rfl

set_option maxHeartbeats 8000000 in
set_option maxRecDepth 8192 in
/-- The token-edge neighbour weight is staged as it is. -/
theorem wtArr_eq (c : Dev nD) : wtArr m c = m ((c : Thread nD τ).loc main_arg8) := by
  unfold wtArr wtOf
  show StableHlo.after hostOps0 (fun b => m (c, b)) (Proc.devRef .tc main_v45) = _
  after_results_simp
  rfl

set_option maxHeartbeats 8000000 in
set_option maxRecDepth 8192 in
/-- The article-edge neighbour weight is staged as it is. -/
theorem waArr_eq (c : Dev nD) : waArr m c = m ((c : Thread nD τ).loc main_arg11) := by
  unfold waArr waOf
  show StableHlo.after hostOps0 (fun b => m (c, b)) (Proc.devRef .tc main_v46) = _
  after_results_simp
  rfl

end Cert.SageSum.KernelValue

end
-- ==== Proof.StagedBias.lean ====
/-
  What the kernel's staged arrays ARE, as functions of the arguments: the joint bias row, the readout's column weight and its scalar bias.

  Before its one region the host computes the two neighbour means (MeanTerms.lean), the sum of the two self weights, the sum
  of the two biases reshaped to a row, the readout's bias reshaped to [1,1], and changes of float format of the destination
  features, the means and the weights — the identity on the extended reals. Each staged array is read off the fold of the 61
  host operations at its buffer: what is left is an argument, a mean of arguments, or a sum of two arguments.
-/
import proofs.«123986_j34986803593241_1_alg».proof.Proof.Gen.KernelIdeal.Frame
import proofs.«123986_j34986803593241_1_alg».proof.Proof.KernelArrays
import Idealize.ShloMosaic.Lib.StableHlo.Run
import Idealize.ShloMosaic.Lib.Pipeline.Value
import Idealize.ShloMosaic.Lib.ValueIdx

noncomputable section

open scoped BigOperators

namespace Cert.SageSum.KernelValue

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxHeartbeats 8000000 in
set_option maxRecDepth 8192 in
/-- The joint bias row is the sum of the two biases, reshaped to a row. -/
theorem bArr_eq (c : Dev nD) : bArr m c = shapeCast S1x10 (addf (F := Ideal) (s := S10) (φ := .f32) (m ((c : Thread nD τ).loc main_arg9)) (m ((c : Thread nD τ).loc main_arg12))) shapeCasts_S10_S1x10 := by
  unfold bArr bOf
  show StableHlo.after hostOps0 (fun b => m (c, b)) (Proc.devRef .tc main_v40) = _
  after_results_simp
  rfl

/-- The joint bias row at channel `k` is the sum of the two biases there. -/
theorem bArr_apply (c : Dev nD) (k : Fin 10) :
    bArr m c (ix2 0 k) = addf (F := Ideal) (s := S10) (φ := .f32) (m ((c : Thread nD τ).loc main_arg9)) (m ((c : Thread nD τ).loc main_arg12)) (ix1 k) := by
  rw [bArr_eq]
  exact shapeCast_apply (s := S10) (t := S1x10) _ shapeCasts_S10_S1x10 (ix2 0 k) (ix1 k) (by
    rw [Shape.rowMajor_val_one, Shape.rowMajor_val_two]; show k.val = 0 * 10 + k.val; omega)

set_option maxHeartbeats 8000000 in
set_option maxRecDepth 8192 in
/-- The readout's column weight is staged as it is. -/
theorem wlArr_eq (c : Dev nD) : wlArr m c = m ((c : Thread nD τ).loc main_arg13) := by
  unfold wlArr wlOf
  show StableHlo.after hostOps0 (fun b => m (c, b)) (Proc.devRef .tc main_v47) = _
  after_results_simp
  rfl

set_option maxHeartbeats 8000000 in
set_option maxRecDepth 8192 in
/-- The readout's scalar bias is the bias argument reshaped to [1,1]. -/
theorem blArr_eq (c : Dev nD) : blArr m c = shapeCast S1x1 (m ((c : Thread nD τ).loc main_arg14)) shapeCasts_S1_S1x1 := by
  unfold blArr blOf
  show StableHlo.after hostOps0 (fun b => m (c, b)) (Proc.devRef .tc main_v48) = _
  after_results_simp
  rfl

/-- The readout's scalar bias is the one entry of the bias argument. -/
theorem blArr_apply (c : Dev nD) : blArr m c (ix2 0 0) = (m ((c : Thread nD τ).loc main_arg14) : S1.Idx → EReal) (ix1 0) := by
  rw [blArr_eq]
  exact shapeCast_apply (s := S1) (t := S1x1) _ shapeCasts_S1_S1x1 (ix2 0 0) (ix1 0) (by
    rw [Shape.rowMajor_val_one, Shape.rowMajor_val_two]; rfl)

end Cert.SageSum.KernelValue

end
-- ==== Proof.RefReadout.lean ====
/-
  The reference, read at an entry, is the readout of the per-edge-type hidden entries.

  The reference's last stage is an add of a product with the column weight and a broadcast scalar bias; its left operand is
  the sum of the two per-edge-type hidden arrays, each a product of the destination features with that type's self weight
  plus a product of that type's neighbour mean with its neighbour weight plus its bias row broadcast down the rows. Read at
  row `r` and the one column, with each product a sum over the ten contracted channels, that is
      Σ_k ( ((Σ_j hs[r,j]·a[j,k] + Σ_j mt[r,j]·wt[j,k]) + c[k]) + ((Σ_j hs[r,j]·b[j,k] + Σ_j ma[r,j]·wa[j,k]) + d[k]) ) · wl[k,0] + bl[0]:
  `readout (hiddenSplit …)`. The two neighbour means stay the arrays the reference computes (`mt`, `ma` below: the gather,
  the two segment sums and the division are never opened). What is proved here is only bookkeeping of indices: the operand
  indices of each product at an entry, and where a broadcast reads its operand.
-/
import proofs.«123986_j34986803593241_1_alg».proof.Proof.Gen.ReferenceIdeal.Read
import proofs.«123986_j34986803593241_1_alg».proof.Proof.Readout

noncomputable section

open scoped BigOperators

namespace Cert.SageSum.Reference

open Cert.ReferenceIdeal Cert.ReferenceIdeal.Read Idealize.ShloMosaic Idealize.ShloMosaic.TcCoe Idealize.ShloMosaic.ValueIdx

/-! ## Where each product and each broadcast reads its operands -/

theorem lidx19 (r : Fin 200000) (c : Fin 10) (k : Fin 10) : lidx_main_v19 (ix2 r c) k = ix2 r k :=
  funext fun a => by match a with | ⟨0, _⟩ => rfl | ⟨1, _⟩ => rfl
theorem ridx19 (r : Fin 200000) (c : Fin 10) (k : Fin 10) : ridx_main_v19 (ix2 r c) k = ix2 k c :=
  funext fun a => by match a with | ⟨0, _⟩ => rfl | ⟨1, _⟩ => rfl
theorem lidx20 (r : Fin 200000) (c : Fin 10) (k : Fin 10) : lidx_main_v20 (ix2 r c) k = ix2 r k :=
  funext fun a => by match a with | ⟨0, _⟩ => rfl | ⟨1, _⟩ => rfl
theorem ridx20 (r : Fin 200000) (c : Fin 10) (k : Fin 10) : ridx_main_v20 (ix2 r c) k = ix2 k c :=
  funext fun a => by match a with | ⟨0, _⟩ => rfl | ⟨1, _⟩ => rfl
theorem lidx44 (r : Fin 200000) (c : Fin 10) (k : Fin 10) : lidx_main_v44 (ix2 r c) k = ix2 r k :=
  funext fun a => by match a with | ⟨0, _⟩ => rfl | ⟨1, _⟩ => rfl
theorem ridx44 (r : Fin 200000) (c : Fin 10) (k : Fin 10) : ridx_main_v44 (ix2 r c) k = ix2 k c :=
  funext fun a => by match a with | ⟨0, _⟩ => rfl | ⟨1, _⟩ => rfl
theorem lidx45 (r : Fin 200000) (c : Fin 10) (k : Fin 10) : lidx_main_v45 (ix2 r c) k = ix2 r k :=
  funext fun a => by match a with | ⟨0, _⟩ => rfl | ⟨1, _⟩ => rfl
theorem ridx45 (r : Fin 200000) (c : Fin 10) (k : Fin 10) : ridx_main_v45 (ix2 r c) k = ix2 k c :=
  funext fun a => by match a with | ⟨0, _⟩ => rfl | ⟨1, _⟩ => rfl
theorem lidx51 (r : Fin 200000) (c : Fin 1) (k : Fin 10) : lidx_main_v51 (ix2 r c) k = ix2 r k :=
  funext fun a => by match a with | ⟨0, _⟩ => rfl | ⟨1, _⟩ => rfl
theorem ridx51 (r : Fin 200000) (c : Fin 1) (k : Fin 10) : ridx_main_v51 (ix2 r c) k = ix2 k c :=
  funext fun a => by match a with | ⟨0, _⟩ => rfl | ⟨1, _⟩ => rfl

/-- A bias row broadcast down the rows reads the bias at the entry's channel. -/
theorem bias23 (x9 : (⟨S10, .f32⟩ : BufTy).Contents (Elt Ideal)) (r : Fin 200000) (k : Fin 10) :
    val_main_v23 (F := Ideal) x9 (ix2 r k) = x9 (ix1 k) := by
  rw [val_main_v23_apply, val_main_v22_apply]
  exact congrArg x9 (funext fun a => by match a with | ⟨0, _⟩ => rfl)
theorem bias48 (x12 : (⟨S10, .f32⟩ : BufTy).Contents (Elt Ideal)) (r : Fin 200000) (k : Fin 10) :
    val_main_v48 (F := Ideal) x12 (ix2 r k) = x12 (ix1 k) := by
  rw [val_main_v48_apply, val_main_v47_apply]
  exact congrArg x12 (funext fun a => by match a with | ⟨0, _⟩ => rfl)
/-- The scalar bias broadcast over the result reads its one entry. -/
theorem bias53 (x14 : (⟨S1, .f32⟩ : BufTy).Contents (Elt Ideal)) (r : Fin 200000) (q : Fin 1) :
    val_main_v53 (F := Ideal) x14 (ix2 r q) = x14 (ix1 0) := by
  rw [val_main_v53_apply, val_main_v52_apply]
  exact congrArg x14 (funext fun a => by match a with | ⟨0, _⟩ => rfl)

/-! ## The hidden entry per edge type, and the result -/

/-- The token-edge hidden array at an entry. -/
theorem hidden_tok (x0 : (⟨S200000x10, .f32⟩ : BufTy).Contents (Elt Ideal)) (x1 : (⟨S500000x10, .f32⟩ : BufTy).Contents (Elt Ideal))
    (x3 x4 : (⟨S8000000, .i32⟩ : BufTy).Contents (Elt Ideal)) (x7 x8 : (⟨S10x10, .f32⟩ : BufTy).Contents (Elt Ideal))
    (x9 : (⟨S10, .f32⟩ : BufTy).Contents (Elt Ideal)) (r : Fin 200000) (k : Fin 10) :
    val_main_v24 (F := Ideal) x0 x1 x3 x4 x7 x8 x9 (ix2 r k)
      = (rowDot x0 x7 r k + rowDot (val_main_v18 (F := Ideal) x1 x3 x4) x8 r k) + x9 (ix1 k) := by
  rw [val_main_v24_apply, val_main_v21_apply, val_main_v19_apply, val_main_v20_apply, bias23]
  simp only [lidx19, ridx19, lidx20, ridx20, Ideal.addf_def]
  rfl

/-- The article-edge hidden array at an entry. -/
theorem hidden_art (x0 : (⟨S200000x10, .f32⟩ : BufTy).Contents (Elt Ideal)) (x2 : (⟨S300000x10, .f32⟩ : BufTy).Contents (Elt Ideal))
    (x5 x6 : (⟨S8000000, .i32⟩ : BufTy).Contents (Elt Ideal)) (x10 x11 : (⟨S10x10, .f32⟩ : BufTy).Contents (Elt Ideal))
    (x12 : (⟨S10, .f32⟩ : BufTy).Contents (Elt Ideal)) (r : Fin 200000) (k : Fin 10) :
    val_main_v49 (F := Ideal) x0 x2 x5 x6 x10 x11 x12 (ix2 r k)
      = (rowDot x0 x10 r k + rowDot (val_main_v43 (F := Ideal) x2 x5 x6) x11 r k) + x12 (ix1 k) := by
  rw [val_main_v49_apply, val_main_v46_apply, val_main_v44_apply, val_main_v45_apply, bias48]
  simp only [lidx44, ridx44, lidx45, ridx45, Ideal.addf_def]
  rfl

/-- THE REFERENCE'S RESULT is the readout of the per-edge-type hidden entries of its arguments, the neighbour means being
    the arrays its own gather, segment sums and division produce. -/
theorem result_eq (x0 : (⟨S200000x10, .f32⟩ : BufTy).Contents (Elt Ideal)) (x1 : (⟨S500000x10, .f32⟩ : BufTy).Contents (Elt Ideal))
    (x2 : (⟨S300000x10, .f32⟩ : BufTy).Contents (Elt Ideal)) (x3 x4 x5 x6 : (⟨S8000000, .i32⟩ : BufTy).Contents (Elt Ideal))
    (x7 x8 : (⟨S10x10, .f32⟩ : BufTy).Contents (Elt Ideal)) (x9 : (⟨S10, .f32⟩ : BufTy).Contents (Elt Ideal))
    (x10 x11 : (⟨S10x10, .f32⟩ : BufTy).Contents (Elt Ideal)) (x12 : (⟨S10, .f32⟩ : BufTy).Contents (Elt Ideal))
    (x13 : (⟨S10x1, .f32⟩ : BufTy).Contents (Elt Ideal)) (x14 : (⟨S1, .f32⟩ : BufTy).Contents (Elt Ideal)) :
    val_main_v54 (F := Ideal) x0 x1 x2 x3 x4 x5 x6 x7 x8 x9 x10 x11 x12 x13 x14
      = readout (hiddenSplit x0 (val_main_v18 (F := Ideal) x1 x3 x4) (val_main_v43 (F := Ideal) x2 x5 x6) x7 x10 x8 x11
          (fun k => x9 (ix1 k)) (fun k => x12 (ix1 k))) x13 (x14 (ix1 0)) := by
  funext i
  obtain ⟨r, q, rfl⟩ : ∃ (r : Fin 200000) (q : Fin 1), i = ix2 r q := ⟨i 0, i 1, eq_ix2 i⟩
  rw [val_main_v54_apply, val_main_v51_apply, bias53]
  show _ = (∑ k : Fin 10, hiddenSplit x0 (val_main_v18 (F := Ideal) x1 x3 x4) (val_main_v43 (F := Ideal) x2 x5 x6) x7 x10 x8 x11
      (fun k => x9 (ix1 k)) (fun k => x12 (ix1 k)) r k * x13 (ix2 k q)) + x14 (ix1 0)
  simp only [lidx51, ridx51, Ideal.addf_def]
  refine congrArg (· + x14 (ix1 0)) (Finset.sum_congr rfl fun k _ => ?_)
  rw [val_main_v50_apply, hidden_tok, hidden_art]
  rfl

end Cert.SageSum.Reference

end
-- ==== Proof.FiniteArgs.lean ====
/-
  From the precondition to finiteness of the three arrays the law needs.

  The precondition is the conjunction, over the eleven float arguments, of "every entry has absolute value below +∞",
  each conjunct a reduction by `and` of the entrywise comparison `|x| < +∞` over the whole array, the conjuncts joined by
  `and` from the left. An `and` of two bits is 1 only if both are, so each conjunct is 1; a reduction by `and` is 1 only
  if every entry's bit is; and `|x| < +∞` on the extended reals, with `|x| = max x (−x)` and the word `0x7F800000` denoting
  `⊤`, says `x` is neither `⊤` nor `⊥`. Only the destination features and the two self weights are read off: they are the
  factors of the one product that is distributed over a sum.
-/
import proofs.«123986_j34986803593241_1_alg».proof.Defs
import proofs.«123986_j34986803593241_1_alg».proof.Proof.Gen.Pre_finite_inputs
import proofs.«123986_j34986803593241_1_alg».proof.Proof.Gen.KernelIdeal
import proofs.«123986_j34986803593241_1_alg».proof.Proof.Readout
import Idealize.ShloMosaic.Lib.ReduceAll
import Idealize.ShloMosaic.Lib.Affine
import Idealize.ShloMosaic.Lib.ValueIdx

noncomputable section

namespace Cert.SageSum.Finite

open Idealize.ShloMosaic Idealize.ShloMosaic.TcCoe Idealize.SL.Sem Idealize.ShloMosaic.ValueIdx

/-- The word of +∞ denotes the top of the extended reals. -/
theorem inf_word : Ideal.ofBits .f32 0x7F800000#32 = (⊤ : EReal) := by simp [Ideal.ofBits, Ideal.ieee]

/-- An extended real whose absolute value is below +∞ is a real number. -/
theorem fin_of_abs_lt_inf (x : EReal) (h : Ideal.cmp .olt (max x (-x)) (Ideal.ofBits .f32 0x7F800000#32) = 1#1) : Fin' x := by
  rw [inf_word] at h
  unfold Ideal.cmp at h
  have hlt : max x (-x) < ⊤ := by
    by_contra hn
    simp [hn] at h
  rw [max_lt_iff] at hlt
  refine ⟨ne_of_lt hlt.1, ?_⟩
  intro hb
  subst hb
  simp at hlt

instance : Subsingleton (⟨0, ![]⟩ : Shape).Idx := ⟨fun a b => funext fun d => d.elim0⟩

/-- A whole-array `and` of "`|x| < +∞`" that is 1 makes every entry a real number. -/
theorem allFinite_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf x) (broadcastInDim s ![] hb (constant (⟨0, ![]⟩ : Shape) .f32 0x7F800000#32)))
        (constantI (⟨0, ![]⟩ : Shape) 1 1#1) hr hu ix0 = 1#1) : AllFinite x := by
  intro i
  have e := Host.reduce_andi_all _ _ hr hu ix0 h i
  exact fin_of_abs_lt_inf (x i) e

/-! ## The three arrays, from the printed precondition -/

section FromPre

open Cert.KernelIdeal

/-- Under the precondition the destination features and the two self weights hold real numbers. The precondition's value is
    `((((((((((p0 ∧ p1) ∧ p2) ∧ p7) ∧ p8) ∧ p9) ∧ p10) ∧ p11) ∧ p12) ∧ p13) ∧ p14)`, `pK` the whole-array `and` for argument `K`:
    the conjunction is peeled from the right down to `p10`, `p7` and `p0`. -/
theorem args_finite (m : (ℓ : Loc nD τ sig) → Buf (Elt Ideal) ℓ) (hpre : Cert.Pre_KernelIdeal m) (c : Dev nD) :
    AllFinite (s := S200000x10) (m ((c.tc : Thread nD τ).loc main_arg0))
    ∧ AllFinite (s := S10x10) (m ((c.tc : Thread nD τ).loc main_arg7))
    ∧ AllFinite (s := S10x10) (m ((c.tc : Thread nD τ).loc main_arg10)) := by
  have h := congrFun (hpre c) ix0
  dsimp only [Cert.Pre_finite_inputs.fn, Cert.Pre_finite_inputs.fn_part1, Cert.Pre_finite_inputs.fn_part2,
    Cert.Pre_finite_inputs.fn_part3] at h
  have h48 := (IntOp.andi_eq_one.mp h).1
  have h43 := (IntOp.andi_eq_one.mp h48).1
  have h38 := (IntOp.andi_eq_one.mp h43).1
  have h33 := (IntOp.andi_eq_one.mp h38).1
  have h28 := IntOp.andi_eq_one.mp h33
  have h23 := (IntOp.andi_eq_one.mp h28.1).1
  have h18 := IntOp.andi_eq_one.mp (IntOp.andi_eq_one.mp h23).1
  have h8 := (IntOp.andi_eq_one.mp (IntOp.andi_eq_one.mp h18.1).1).1
  exact ⟨allFinite_of_all _ _ _ _ h8, allFinite_of_all _ _ _ _ h18.2, allFinite_of_all _ _ _ _ h28.2⟩

end FromPre

end Cert.SageSum.Finite

end
-- ==== Proof.lean ====
/-
  Two heterogeneous GraphSAGE mean-aggregation layers into 200000 destination nodes, summed, followed by a linear readout
  to one channel: the kernel against its jnp reference, over the extended reals.

  Both programs form the two neighbour means (token edges, article edges) on the host with the same gather, segment sums and
  division; the kernel then adds the two self weights and the two biases on the host and, in one region over 25 blocks of 8000
  destination rows, computes
      ((hs·(Wst + Wsa) + mt·Wnt) + ma·Wna + (bt + ba)) · Wl + bl,
  while the reference computes
      (((hs·Wst + mt·Wnt) + bt) + ((hs·Wsa + ma·Wna) + ba)) · Wl + bl.
  The two agree entry by entry because the destination features `hs` and the self weights `Wst`, `Wsa` are finite, so that the
  product distributes over `Wst + Wsa` (SumLaw.lean, Readout.lean; FiniteArgs.lean reads the finiteness off the precondition);
  everything else is a regrouping of sums, valid for arbitrary extended reals, so the means are never opened. The kernel's
  result array is the readout of the joint hidden entries of the arrays it stages (BodyAtEntry.lean, KernelPoint.lean,
  KernelBlocks.lean, KernelEntries*.lean, KernelArrays.lean, KernelRun.lean), the staged arrays are arguments, means of arguments or sums of two arguments (Staged*.lean,
  MeanTerms.lean), and the reference's result is the readout of the per-edge-type hidden entries (RefReadout.lean).
  The frames of the two kernel programs are their generated frame runs; the reference's is its generated run with the result
  dropped. The idealization rewrote no operation, so there is nothing to preserve.
-/
import proofs.«123986_j34986803593241_1_alg».proof.Defs
import proofs.«123986_j34986803593241_1_alg».proof.Proof.Gen.Kernel
import proofs.«123986_j34986803593241_1_alg».proof.Proof.Gen.Kernel.Skeleton
import proofs.«123986_j34986803593241_1_alg».proof.Proof.Gen.Kernel.Launch
import proofs.«123986_j34986803593241_1_alg».proof.Proof.Gen.Kernel.Points
import proofs.«123986_j34986803593241_1_alg».proof.Proof.Gen.Kernel.Frame
import proofs.«123986_j34986803593241_1_alg».proof.Proof.Gen.KernelIdeal
import proofs.«123986_j34986803593241_1_alg».proof.Proof.Gen.KernelIdeal.Skeleton
import proofs.«123986_j34986803593241_1_alg».proof.Proof.Gen.KernelIdeal.Launch
import proofs.«123986_j34986803593241_1_alg».proof.Proof.Gen.KernelIdeal.Points
import proofs.«123986_j34986803593241_1_alg».proof.Proof.Gen.KernelIdeal.Frame
import proofs.«123986_j34986803593241_1_alg».proof.Proof.Gen.ReferenceIdeal
import proofs.«123986_j34986803593241_1_alg».proof.Proof.Gen.KernelIdeal.Value
import proofs.«123986_j34986803593241_1_alg».proof.Proof.Gen.ReferenceIdeal.Run
import proofs.«123986_j34986803593241_1_alg».proof.Proof.Gen.ReferenceIdeal.Read
import proofs.«123986_j34986803593241_1_alg».proof.Proof.Gen.Pre_finite_inputs
import proofs.«123986_j34986803593241_1_alg».proof.Proof.KernelRun
import proofs.«123986_j34986803593241_1_alg».proof.Proof.StagedTok
import proofs.«123986_j34986803593241_1_alg».proof.Proof.StagedArt
import proofs.«123986_j34986803593241_1_alg».proof.Proof.StagedWeights
import proofs.«123986_j34986803593241_1_alg».proof.Proof.StagedBias
import proofs.«123986_j34986803593241_1_alg».proof.Proof.MeanTerms
import proofs.«123986_j34986803593241_1_alg».proof.Proof.RefReadout
import proofs.«123986_j34986803593241_1_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx
open Cert.SageSum Cert.SageSum.KernelValue Cert.SageSum.Means

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition, what the kernel's result array ends holding is the reference's last stage of the kernel's own
    arguments: the staged arrays are arguments, the reference's means, or sums of two arguments; the joint readout is the
    split one, the destination features and the self weights being finite; and that is the reference read at an entry. -/
theorem result_is_reference (m : (ℓ : Loc Cert.KernelIdeal.nD Cert.KernelIdeal.τ Cert.KernelIdeal.sig) → Buf (Elt Ideal) ℓ)
    (hpre : Cert.Pre_KernelIdeal m) (c : Dev Cert.KernelIdeal.nD) :
    result m c = Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  obtain ⟨f0, f7, f10⟩ := Cert.SageSum.Finite.args_finite m hpre c
  -- the result array in terms of the named staged arrays, then each staged array as a function of the arguments
  have e : result m c = readout (hiddenJoint (hsArr m c) (mtArr m c) (maArr m c) (wsArr m c) (wtArr m c) (waArr m c)
      (fun k => bArr m c (ix2 0 k))) (wlArr m c) (blArr m c (ix2 0 0)) := rfl
  rw [e, hsArr_eq m c, mtArr_eq m c, maArr_eq m c, wsArr_eq m c, wtArr_eq m c, waArr_eq m c, wlArr_eq m c, blArr_apply m c]
  simp only [bArr_apply m c]
  -- the means are the reference's; the reference's result is the split readout; the joint readout is the split one
  rw [meanTok_eq (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), meanArt_eq (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.SageSum.Reference.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))]
  exact readout_joint_eq_split (m ((c.tc : Thread Cert.KernelIdeal.nD Cert.KernelIdeal.τ).loc Cert.KernelIdeal.main_arg0))
    (Cert.ReferenceIdeal.Read.val_main_v18 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
    (Cert.ReferenceIdeal.Read.val_main_v43 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg8)) (m ((c.tc : Thread Cert.KernelIdeal.nD Cert.KernelIdeal.τ).loc Cert.KernelIdeal.main_arg11))
    (fun k => (m ((c.tc : Thread Cert.KernelIdeal.nD Cert.KernelIdeal.τ).loc Cert.KernelIdeal.main_arg9)) (ix1 k)) (fun k => (m ((c.tc : Thread Cert.KernelIdeal.nD Cert.KernelIdeal.τ).loc Cert.KernelIdeal.main_arg12)) (ix1 k)) (m ((c.tc : Thread Cert.KernelIdeal.nD Cert.KernelIdeal.τ).loc Cert.KernelIdeal.main_arg13)) ((m ((c.tc : Thread Cert.KernelIdeal.nD Cert.KernelIdeal.τ).loc Cert.KernelIdeal.main_arg14)) (ix1 0)) f0 f7 f10

/-- Both idealized programs run, from memories agreeing on the arguments, to equal results. -/
theorem algebraic : Cert.algebraic_KernelIdeal_ReferenceIdeal := by
  intro m ρ m' ρ' hpre hagree
  refine ⟨fun c => result m c, Cert.SageSum.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [a0, a1, a2, a3, a4, a5, a6, a7, a8, a9, a10, a11, a12, a13, a14]
  exact (Cert.ReferenceIdeal.Read.val_main_v54_eq _ _ _ _ _ _ _ _ _ _ _ _ _ _ _).trans (result_is_reference m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
